-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S100 : Shape := ⟨1, ![100]⟩
abbrev S4096 : Shape := ⟨1, ![4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S100 : S_.BroadcastsInDim S100 (![] : Fin 0 → Fin S100.rank)
  reducesTo_S100_S_d0 : S100.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : IVec S4096 32) (main_v15 : IVec S_ 1) (main_c_5 : IVec S_ 32) : IVec S_ 1 :=
  let main_v16 : IVec S4096 32 := broadcastInDim S4096 ![] bcast_S_S4096 main_c_5
  let main_v17 : IVec S4096 1 := cmpi .sge main_arg4 main_v16
  let main_c_6 : IVec S_ 32 := constantI S_ 32 4096#32
  let main_v18 : IVec S4096 32 := broadcastInDim S4096 ![] bcast_S_S4096 main_c_6
  let main_v19 : IVec S4096 1 := cmpi .slt main_arg4 main_v18
  let main_v20 : IVec S4096 1 := andi main_v17 main_v19
  let main_c_7 : IVec S_ 1 := constantI S_ 1 1#1
  let main_v21 : IVec S_ 1 := (fun x v => Host.reduce IntOp.andi x v reducesTo_S4096_S_d0 h_S_) main_v20 main_c_7
  let main_v22 : IVec S_ 1 := andi main_v15 main_v21
  main_v22

def fn {F : FTy → Type} [FloatOps F] (main_arg0 : FVec F S4096x256 .f32) (main_arg1 : FVec F S100 .f32) (main_arg2 : IVec S4096 32) (main_arg3 : IVec S4096 32) (main_arg4 : IVec S4096 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S100 .f32 := Host.absf main_arg1
  let main_cst_0 : FVec F S_ .f32 := constant S_ .f32 0x7F800000#32
  let main_v5 : FVec F S100 .f32 := broadcastInDim S100 ![] bcast_S_S100 main_cst_0
  let main_v6 : IVec S100 1 := cmpf .olt main_v4 main_v5
  let main_c_1 : IVec S_ 1 := constantI S_ 1 1#1
  let main_v7 : IVec S_ 1 := (fun x v => Host.reduce IntOp.andi x v reducesTo_S100_S_d0 h_S_) main_v6 main_c_1
  let main_v8 : IVec S_ 1 := andi main_v3 main_v7
  let main_c_2 : IVec S_ 32 := constantI S_ 32 4294963200#32
  let main_v9 : IVec S4096 32 := broadcastInDim S4096 ![] bcast_S_S4096 main_c_2
  let main_v10 : IVec S4096 1 := cmpi .sge main_arg3 main_v9
  let main_c_3 : IVec S_ 32 := constantI S_ 32 4096#32
  let main_v11 : IVec S4096 32 := broadcastInDim S4096 ![] bcast_S_S4096 main_c_3
  let main_v12 : IVec S4096 1 := cmpi .slt main_arg3 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  let main_c_5 : IVec S_ 32 := constantI S_ 32 4294963200#32
  fn_part1 (F := F) main_arg4 main_v15 main_c_5
-- ==== Kernel.lean ====
abbrev S4096x256 : Shape := ⟨2, ![4096, 256]⟩
abbrev S100 : Shape := ⟨1, ![100]⟩
abbrev S4096 : Shape := ⟨1, ![4096]⟩
abbrev S1x4096 : Shape := ⟨2, ![1, 4096]⟩
abbrev S512x256 : Shape := ⟨2, ![512, 256]⟩
abbrev S1x512 : Shape := ⟨2, ![1, 512]⟩
abbrev S512 : Shape := ⟨1, ![512]⟩
abbrev S512x1 : Shape := ⟨2, ![512, 1]⟩
abbrev S4096x1 : Shape := ⟨2, ![4096, 1]⟩
abbrev S256x4096 : Shape := ⟨2, ![256, 4096]⟩
abbrev S512x4096 : Shape := ⟨2, ![512, 4096]⟩
abbrev S_ : Shape := ⟨0, ![]⟩
abbrev S1 : Shape := ⟨1, ![1]⟩
abbrev S1x1 : Shape := ⟨2, ![1, 1]⟩

abbrev nBuf : Space → Nat
  | .hbm => 115
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S100, .f32⟩
  | .hbm, ⟨2, _⟩ => ⟨S4096, .i32⟩
  | .hbm, ⟨3, _⟩ => ⟨S4096, .i32⟩
  | .hbm, ⟨4, _⟩ => ⟨S4096, .i32⟩
  | .hbm, ⟨5, _⟩ => ⟨S1x4096, .f32⟩
  | .hbm, ⟨6, _⟩ => ⟨S4096, .f32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S1, .i32⟩
  | .hbm, ⟨16, _⟩ => ⟨S_, .i32⟩
  | .hbm, ⟨17, _⟩ => ⟨S4096x1, .i32⟩
  | .hbm, ⟨18, _⟩ => ⟨S4096x1, .i1⟩
  | .hbm, ⟨19, _⟩ => ⟨S1x1, .i32⟩
  | .hbm, ⟨20, _⟩ => ⟨S4096x1, .i32⟩
  | .hbm, ⟨21, _⟩ => ⟨S4096x1, .i1⟩
  | .hbm, ⟨22, _⟩ => ⟨S4096x1, .i1⟩
  | .hbm, ⟨23, _⟩ => ⟨S_, .i1⟩
  | .hbm, ⟨24, _⟩ => ⟨S4096, .i1⟩
  | .hbm, ⟨25, _⟩ => ⟨S4096x256, .f32⟩
  | .hbm, ⟨26, _⟩ => ⟨S4096x256, .i1⟩
  | .hbm, ⟨27, _⟩ => ⟨S_, .f32⟩
  | .hbm, ⟨28, _⟩ => ⟨S4096x256, .f32⟩
  | .hbm, ⟨29, _⟩ => ⟨S4096x256, .f32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S1, .i32⟩
  | .hbm, ⟨39, _⟩ => ⟨S_, .i32⟩
  | .hbm, ⟨40, _⟩ => ⟨S4096x1, .i32⟩
  | .hbm, ⟨41, _⟩ => ⟨S4096x1, .i1⟩
  | .hbm, ⟨42, _⟩ => ⟨S1x1, .i32⟩
  | .hbm, ⟨43, _⟩ => ⟨S4096x1, .i32⟩
  | .hbm, ⟨44, _⟩ => ⟨S4096x1, .i1⟩
  | .hbm, ⟨45, _⟩ => ⟨S4096x1, .i1⟩
  | .hbm, ⟨46, _⟩ => ⟨S_, .i1⟩
  | .hbm, ⟨47, _⟩ => ⟨S4096, .i1⟩
  | .hbm, ⟨48, _⟩ => ⟨S4096x256, .f32⟩
  | .hbm, ⟨49, _⟩ => ⟨S4096x256, .i1⟩
  | .hbm, ⟨50, _⟩ => ⟨S_, .f32⟩
  | .hbm, ⟨51, _⟩ => ⟨S4096x256, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S_, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S4096x256, .f32⟩
  | .hbm, ⟨62, _⟩ => ⟨S4096x256, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096, .f32⟩
  | .hbm, ⟨69, _⟩ => ⟨S_, .i32⟩
  | .hbm, ⟨70, _⟩ => ⟨S4096, .i32⟩
  | .hbm, ⟨71, _⟩ => ⟨S4096, .i1⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S4096, .i32⟩
  | .hbm, ⟨76, _⟩ => ⟨S4096x1, .i32⟩
  | .hbm, ⟨77, _⟩ => ⟨S4096, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S_, .f32⟩
  | .hbm, ⟨83, _⟩ => ⟨S4096, .f32⟩
  | .hbm, ⟨84, _⟩ => ⟨S4096, .f32⟩
  | .hbm, ⟨85, _⟩ => ⟨S4096, .f32⟩
  | .hbm, ⟨86, _⟩ => ⟨S_, .f32⟩
  | .hbm, ⟨87, _⟩ => ⟨S4096, .f32⟩
  | .hbm, ⟨88, _⟩ => ⟨S4096, .f32⟩
  | .hbm, ⟨89, _⟩ => ⟨S_, .f32⟩
  | .hbm, ⟨90, _⟩ => ⟨S4096, .f32⟩
  | .hbm, ⟨91, _⟩ => ⟨S4096, .f32⟩
  | .hbm, ⟨92, _⟩ => ⟨S_, .f32⟩
  | .hbm, ⟨93, _⟩ => ⟨S4096, .f32⟩
  | .hbm, ⟨94, _⟩ => ⟨S4096, .i1⟩
  | .hbm, ⟨95, _⟩ => ⟨S_, .f32⟩
  | .hbm, ⟨96, _⟩ => ⟨S4096, .f32⟩
  | .hbm, ⟨97, _⟩ => ⟨S4096, .i1⟩
  | .hbm, ⟨98, _⟩ => ⟨S4096, .i1⟩
  | .hbm, ⟨99, _⟩ => ⟨S4096, .i32⟩
  | .hbm, ⟨100, _⟩ => ⟨S_, .i32⟩
  | .hbm, ⟨101, _⟩ => ⟨S_, .i32⟩
  | .hbm, ⟨102, _⟩ => ⟨S_, .f32⟩
  | .hbm, ⟨103, _⟩ => ⟨S4096, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .i1⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S4096x256, .f32⟩
  | .local _ .vmem, ⟨3, _⟩ => ⟨S1x512, .f32⟩
  | .local _ .vmem, ⟨4, _⟩ => ⟨S1x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v2 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_cst : Ref sig .tc := ⟨.hbm, 55, rfl⟩
abbrev main_v6 : Ref sig .tc := ⟨.hbm, 56, rfl⟩
abbrev main_cst_0 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_cst_1 : Ref sig .tc := ⟨.hbm, 63, rfl⟩
abbrev main_v12 : Ref sig .tc := ⟨.hbm, 64, rfl⟩
abbrev main_cst_2 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_c : Ref sig .tc := ⟨.hbm, 69, rfl⟩
abbrev main_v16 : Ref sig .tc := ⟨.hbm, 70, rfl⟩
abbrev main_v17 : Ref sig .tc := ⟨.hbm, 71, rfl⟩
abbrev main_c_3 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_cst_4 : Ref sig .tc := ⟨.hbm, 79, rfl⟩
abbrev main_v24 : Ref sig .tc := ⟨.hbm, 80, rfl⟩
abbrev main_v25 : Ref sig .tc := ⟨.hbm, 81, rfl⟩
abbrev main_call2_cst : Ref sig .tc := ⟨.hbm, 82, rfl⟩
abbrev main_call2_v0 : Ref sig .tc := ⟨.hbm, 83, rfl⟩
abbrev main_v26 : Ref sig .tc := ⟨.hbm, 84, rfl⟩
abbrev main_v27 : Ref sig .tc := ⟨.hbm, 85, rfl⟩
abbrev main_cst_5 : Ref sig .tc := ⟨.hbm, 86, rfl⟩
abbrev main_v28 : Ref sig .tc := ⟨.hbm, 87, rfl⟩
abbrev main_v29 : Ref sig .tc := ⟨.hbm, 88, rfl⟩
abbrev main_call3_cst : Ref sig .tc := ⟨.hbm, 89, rfl⟩
abbrev main_call3_v0 : Ref sig .tc := ⟨.hbm, 90, rfl⟩
abbrev main_v30 : Ref sig .tc := ⟨.hbm, 91, rfl⟩
abbrev main_cst_6 : Ref sig .tc := ⟨.hbm, 92, rfl⟩
abbrev main_v31 : Ref sig .tc := ⟨.hbm, 93, rfl⟩
abbrev main_v32 : Ref sig .tc := ⟨.hbm, 94, rfl⟩
abbrev main_cst_7 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_c_8 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_cst_9 : Ref sig .tc := ⟨.hbm, 104, rfl⟩
abbrev main_v40 : Ref sig .tc := ⟨.hbm, 105, rfl⟩
abbrev main_cst_10 : Ref sig .tc := ⟨.hbm, 106, rfl⟩
abbrev main_v41 : Ref sig .tc := ⟨.hbm, 107, rfl⟩
abbrev main_cst_11 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_cst_12 : Ref sig .tc := ⟨.hbm, 112, rfl⟩
abbrev main_v45 : Ref sig .tc := ⟨.hbm, 113, rfl⟩
abbrev main_v46 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x256_S512x256_0_0 : ∀ a, (![0, 0] : Fin 2 → Nat) a + S512x256.size a ≤ S512x256.size a
  h_S512x256 : 0 < S512x256.numel
  inb_S4096x256_S4096x256_0_0 : ∀ a, (![0, 0] : Fin 2 → Nat) a + S4096x256.size a ≤ S4096x256.size a
  h_S4096x256 : 0 < S4096x256.numel
  reduces_S512x256_S512 : S512x256.Reduces [1] S512
  shapeCasts_S512_S512x1 : S512.ShapeCasts S512x1
  reduces_S4096x256_S4096 : S4096x256.Reduces [1] S4096
  shapeCasts_S4096_S4096x1 : S4096.ShapeCasts S4096x1
  transposes_S4096x256_p1_0_S256x4096 : S4096x256.Transposes [1, 0] S256x4096
  transposes_S4096x1_p1_0_S1x4096 : S4096x1.Transposes [1, 0] S1x4096
  broadcasts_S512x1_S512x4096 : S512x1.Broadcasts S512x4096
  broadcasts_S1x4096_S512x4096 : S1x4096.Broadcasts S512x4096
  iota_S512x1_d0_w32 : S512x1.Iotas .tc 32 [0]
  iota_S1x4096_d1_w32 : S1x4096.Iotas .tc 32 [1]
  reduces_S512x4096_S512 : S512x4096.Reduces [1] S512
  transposes_S512x1_p1_0_S1x512 : S512x1.Transposes [1, 0] S1x512
  inb_S1x512_S1x512_0_0 : ∀ a, (![0, 0] : Fin 2 → Nat) a + S1x512.size a ≤ S1x512.size a
  h_S1x512 : 0 < S1x512.numel
  shapeCasts_S1x4096_S4096 : S1x4096.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x256_0 : S4096.BroadcastsInDim S4096x256 (![0] : Fin 1 → Fin S4096x256.rank)
  bcast_S_S4096x256 : S_.BroadcastsInDim S4096x256 (![] : Fin 0 → Fin S4096x256.rank)
  reducesTo_S4096x256_S4096_d1 : S4096x256.ReducesTo [1] S4096
  natLt_1_32 : 1 < 32
  reducesTo_S4096_S_d0 : S4096.ReducesTo [0] S_
  dot_S512x256_S256x4096_S512x4096_1_0_0_1_n_n_wf : DotDims.WF S512x256 S256x4096 S512x4096 [1] [0] [0] [1] [] []
  gather_S4096x256_S4096x1_S4096x256_1_0_n_n_0_1_1256_wf : GatherDims.WF S4096x256 S4096x1 S4096x256 [1] [0] [] [0] [] 1 ![1, 256]
  gather_S100_S4096x1_S4096_n_0_n_n_0_1_1_wf : GatherDims.WF S100 S4096x1 S4096 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)

variable [Facts₀]

def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf
def gather_S4096x256_S4096x1_S4096x256_1_0_n_n_0_1_1256 : GatherDims S4096x256 S4096x1 S4096x256 where
  offsetDims := [1]
  collapsedSliceDims := [0]
  operandBatchingDims := []
  startIndicesBatchingDims := []
  startIndexMap := [0]
  indexVectorDim := 1
  sliceSizes := ![1, 256]
  wf := gather_S4096x256_S4096x1_S4096x256_1_0_n_n_0_1_1256_wf
def gather_S100_S4096x1_S4096_n_0_n_n_0_1_1 : GatherDims S100 S4096x1 S4096 where
  offsetDims := []
  collapsedSliceDims := [0]
  operandBatchingDims := []
  startIndicesBatchingDims := []
  startIndexMap := [0]
  indexVectorDim := 1
  sliceSizes := ![1]
  wf := gather_S100_S4096x1_S4096_n_0_n_n_0_1_1_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S100 : Shape := ⟨1, ![100]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S256x4096 : Shape := ⟨2, ![256, 4096]⟩

abbrev nBuf : Space → Nat
  | .hbm => 117
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S100, .f32⟩
  | .hbm, ⟨2, _⟩ => ⟨S4096, .i32⟩
  | .hbm, ⟨3, _⟩ => ⟨S4096, .i32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096x1, .i32⟩
  | .hbm, ⟨47, _⟩ => ⟨S4096, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .i1⟩
  | .hbm, ⟨65, _⟩ => ⟨S_, .f32⟩
  | .hbm, ⟨66, _⟩ => ⟨S4096, .f32⟩
  | .hbm, ⟨67, _⟩ => ⟨S4096, .i1⟩
  | .hbm, ⟨68, _⟩ => ⟨S4096, .i1⟩
  | .hbm, ⟨69, _⟩ => ⟨S4096, .i32⟩
  | .hbm, ⟨70, _⟩ => ⟨S_, .i32⟩
  | .hbm, ⟨71, _⟩ => ⟨S_, .i32⟩
  | .hbm, ⟨72, _⟩ => ⟨S_, .f32⟩
  | .hbm, ⟨73, _⟩ => ⟨S4096, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .i1⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S4096x256, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S1x4096, .f32⟩
  | .hbm, ⟨87, _⟩ => ⟨S4096x4096, .f32⟩
  | .hbm, ⟨88, _⟩ => ⟨S4096x4096, .f32⟩
  | .hbm, ⟨89, _⟩ => ⟨S4096x4096, .f32⟩
  | .hbm, ⟨90, _⟩ => ⟨S_, .f32⟩
  | .hbm, ⟨91, _⟩ => ⟨S4096x256, .f32⟩
  | .hbm, ⟨92, _⟩ => ⟨S4096x256, .f32⟩
  | .hbm, ⟨93, _⟩ => ⟨S256x4096, .f32⟩
  | .hbm, ⟨94, _⟩ => ⟨S4096x4096, .f32⟩
  | .hbm, ⟨95, _⟩ => ⟨S4096x4096, .f32⟩
  | .hbm, ⟨96, _⟩ => ⟨S_, .f32⟩
  | .hbm, ⟨97, _⟩ => ⟨S_, .f32⟩
  | .hbm, ⟨98, _⟩ => ⟨S4096x4096, .f32⟩
  | .hbm, ⟨99, _⟩ => ⟨S4096x4096, .f32⟩
  | .hbm, ⟨100, _⟩ => ⟨S4096x4096, .i32⟩
  | .hbm, ⟨101, _⟩ => ⟨S4096x4096, .i32⟩
  | .hbm, ⟨102, _⟩ => ⟨S_, .i32⟩
  | .hbm, ⟨103, _⟩ => ⟨S4096x4096, .i32⟩
  | .hbm, ⟨104, _⟩ => ⟨S4096x4096, .i32⟩
  | .hbm, ⟨105, _⟩ => ⟨S4096x4096, .i1⟩
  | .hbm, ⟨106, _⟩ => ⟨S_, .f32⟩
  | .hbm, ⟨107, _⟩ => ⟨S_, .f32⟩
  | .hbm, ⟨108, _⟩ => ⟨S4096x4096, .f32⟩
  | .hbm, ⟨109, _⟩ => ⟨S4096x4096, .f32⟩
  | .hbm, ⟨110, _⟩ => ⟨S_, .f32⟩
  | .hbm, ⟨111, _⟩ => ⟨S4096, .f32⟩
  | .hbm, ⟨112, _⟩ => ⟨S4096, .f32⟩
  | .hbm, ⟨113, _⟩ => ⟨S4096, .f32⟩
  | .hbm, ⟨114, _⟩ => ⟨S_, .f32⟩
  | .hbm, ⟨115, _⟩ => ⟨S_, .f32⟩
  | .hbm, ⟨116, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_call0_cst : Ref sig .tc := ⟨.hbm, 52, rfl⟩
abbrev main_call0_v0 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_call1_cst : Ref sig .tc := ⟨.hbm, 59, rfl⟩
abbrev main_call1_v0 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_12 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_13 : Ref sig .tc := ⟨.hbm, 74, rfl⟩
abbrev main_v50 : Ref sig .tc := ⟨.hbm, 75, rfl⟩
abbrev main_cst_14 : Ref sig .tc := ⟨.hbm, 76, rfl⟩
abbrev main_v51 : Ref sig .tc := ⟨.hbm, 77, rfl⟩
abbrev main_cst_15 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_16 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_17 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_18 : Ref sig .tc := ⟨.hbm, 96, rfl⟩
abbrev main_call3_v0 : Ref sig .tc := ⟨.hbm, 97, rfl⟩
abbrev main_call3_v1 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_19 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_20 : Ref sig .tc := ⟨.hbm, 106, rfl⟩
abbrev main_call4_v0 : Ref sig .tc := ⟨.hbm, 107, rfl⟩
abbrev main_call4_v1 : Ref sig .tc := ⟨.hbm, 108, rfl⟩
abbrev main_v73 : Ref sig .tc := ⟨.hbm, 109, rfl⟩
abbrev main_cst_21 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_22 : Ref sig .tc := ⟨.hbm, 114, rfl⟩
abbrev main_v77 : Ref sig .tc := ⟨.hbm, 115, rfl⟩
abbrev main_v78 : Ref sig .tc := ⟨.hbm, 116, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S4096x256_S4096_d1 : S4096x256.ReducesTo [1] S4096
  h_S_ : 0 < S_.numel
  natLt_1_32 : 1 < 32
  reducesTo_S4096_S_d0 : S4096.ReducesTo [0] S_
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x256 : S_.BroadcastsInDim S4096x256 (![] : Fin 0 → Fin S4096x256.rank)
  transposes_S4096x256_S256x4096_1_0 : S4096x256.Transposes [1, 0] S256x4096
  bcast_S_S4096x4096 : S_.BroadcastsInDim S4096x4096 (![] : Fin 0 → Fin S4096x4096.rank)
  reducesTo_S4096x4096_S4096_d1 : S4096x4096.ReducesTo [1] S4096
  gather_S4096x256_S4096x1_S4096x256_1_0_n_n_0_1_1256_wf : GatherDims.WF S4096x256 S4096x1 S4096x256 [1] [0] [] [0] [] 1 ![1, 256]
  gather_S100_S4096x1_S4096_n_0_n_n_0_1_1_wf : GatherDims.WF S100 S4096x1 S4096 [] [0] [] [0] [] 1 ![1]
  dot_S4096x256_S256x4096_S4096x4096_1_0_0_1_n_n_wf : DotDims.WF S4096x256 S256x4096 S4096x4096 [1] [0] [0] [1] [] []

variable [Facts₀]

def gather_S4096x256_S4096x1_S4096x256_1_0_n_n_0_1_1256 : GatherDims S4096x256 S4096x1 S4096x256 where
  offsetDims := [1]
  collapsedSliceDims := [0]
  operandBatchingDims := []
  startIndicesBatchingDims := []
  startIndexMap := [0]
  indexVectorDim := 1
  sliceSizes := ![1, 256]
  wf := gather_S4096x256_S4096x1_S4096x256_1_0_n_n_0_1_1256_wf
def gather_S100_S4096x1_S4096_n_0_n_n_0_1_1 : GatherDims S100 S4096x1 S4096 where
  offsetDims := []
  collapsedSliceDims := [0]
  operandBatchingDims := []
  startIndicesBatchingDims := []
  startIndexMap := [0]
  indexVectorDim := 1
  sliceSizes := ![1]
  wf := gather_S100_S4096x1_S4096_n_0_n_n_0_1_1_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.K.Body.lean ====
/-
  The kernel body of the row-minimum distance kernel, for any float values: what each staging buffer holds after the
  body at a grid point, the body's triple, the pipeline's proof data and the body obligation.

  The pipeline has three windows: window 0 is the row block (512 rows of the batch), window 1 the whole batch (both on
  the one argument array), window 2 the block of 512 results the point writes back. The body loads the two input
  buffers whole, computes one value from them (the skeleton's payload) and stores it over the whole result buffer; it
  also loads the result buffer once and does not use what it read.
-/
import proofs.«400402_j52682068853382_2_alg».proof.Proof.Gen.Kernel.Launch
import proofs.«400402_j52682068853382_2_alg».proof.Proof.Gen.Kernel.Skeleton
import proofs.«400402_j52682068853382_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each buffer whole -/

abbrev rRows : Rect S512x256 := Rect.unit (s := S512x256) ![0, 0] S512x256.size inb_S512x256_S512x256_0_0
abbrev rAll : Rect S4096x256 := Rect.unit (s := S4096x256) ![0, 0] S4096x256.size inb_S4096x256_S4096x256_0_0
abbrev rOut : Rect S1x512 := Rect.unit (s := S1x512) ![0, 0] S1x512.size inb_S1x512_S1x512_0_0

/-- The result buffer after the body, from the two input buffers' contents: its one store as a piece. -/
def outRow (i : grid0.Coords) (x0 : Vec F S512x256 .f32) (x1 : Vec F S4096x256 .f32) : Vec F S1x512 .f32 :=
  View.canon [⟨rOut, k0_pay1 i (View.ld x0 rRows) (View.ld x1 rAll)⟩]

/-- The one store covers the result buffer. -/
theorem cover_out (p0 : Vec F S1x512 .f32) (y : S1x512.Idx) :
    ∃ pc ∈ ([⟨rOut, p0⟩] : List (View.Piece (Elt F) S1x512 .f32)), y ∈ pc.1.set :=
  View.cover_of_tiled [⟨rOut, p0⟩] S1x512.size (by rfl) y

/-! ## The body's triple -/

set_option maxHeartbeats 1000000 in
/-- The body on whole staging memrefs, the inputs' at read contents `x0`, `x1` and the result's at anything, runs to the
    continuation holding the inputs' as they were and the result's at `outRow` of them. -/
theorem sound_kernel (c : Dev nD) (E : Set ℕ) (i : grid0.Coords)
    (arg1 : Memref sig .tc .vmem S512x256 .f32) (harg1 : arg1.IsWhole) (arg2 : Memref sig .tc .vmem S4096x256 .f32) (harg2 : arg2.IsWhole)
    (arg3 : Memref sig .tc .vmem S1x512 .f32) (harg3 : arg3.IsWhole)
    (x0 : Vec F S512x256 .f32) (x1 : Vec F S4096x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outRow i x0 x1)) -∗ K ⟨⟩))
      ⊢ wp frame (wpE (defs₀ (F := F)) Variants.none c none) E (cc0__min_log_dist_kernel i arg1 harg1 arg2 harg2 arg3 harg3) K := by
  simp only [cc0__min_log_dist_kernel_eq_skeleton]; unfold cc0__min_log_dist_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data on core `c`: the arrays as the region finds them; after the body at point `t` each input's buffer at
    its block and the result's at `outRow` of the input blocks; the invariant the scoped rest and the generator register,
    untouched; nothing owed. The batch's array is read through two windows, each holding half of it. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outRow (grid0.coords t) (iblk V c 0 t) (iblk V c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) :
    (dat0 V c).after 2 t = outRow (grid0.coords t) (iblk V c 0 t) (iblk V c 1 t) := by dsimp only [dat0]

/-- Each input's current staging buffer holds its block at every point, fetched there or not. -/
theorem before_0 (c : Dev nD) (t : Fin cfg0.N) (d) : (dat0 V c).before 0 t d = iblk V c 0 t :=
  ((dat0 V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 V c).before 1 t d = iblk V c 1 t :=
  ((dat0 V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body obligation, at a generic point -/

/-- What the body is called with at point `t`: the invariant, what the core owes, and each window's current staging
    buffer at what it then holds. -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same with each buffer at what the body leaves. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, the result's holds anything, so the body's triple
    applies; the invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat0 V c).Φ t.succ = (dat0 V c).Φ t.castSucc from rfl,
    show (dat0 V c).owesAt () t.succ = (dat0 V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat0 (F := F) V c) (defs₀ (F := F)) Variants.none () Set.univ := fun t => by
  rw [bigSep_W0, bigSep_W0]
  exact sound_body V c t

end Cert.Kernel.Hand

end
-- ==== Proof.K.Fold.lean ====
/-
  The host operations that follow the kernel region, as one fold of buffer contents: `Tk W` is what every buffer holds
  after the first `k` stretches of @main's tail, from the contents `W` at the region's exit.
-/
import proofs.«400402_j52682068853382_2_alg».proof.Proof.Gen.Kernel.Launch

noncomputable section

namespace Cert.Kernel.Hand

open Cert.Kernel Cert.Kernel.Gen
open Idealize.ShloMosaic Idealize.ShloMosaic.TcCoe

variable {F : FTy → Type} [FloatOps F]

abbrev T1 (W : Valuation τ sig (Elt F)) : Valuation τ sig (Elt F) := StableHlo.after hostOps1 W
abbrev T2 (W : Valuation τ sig (Elt F)) : Valuation τ sig (Elt F) := StableHlo.after hostOps1_1 (T1 W)
abbrev T3 (W : Valuation τ sig (Elt F)) : Valuation τ sig (Elt F) := StableHlo.after hostOps1_2 (T2 W)
abbrev T4 (W : Valuation τ sig (Elt F)) : Valuation τ sig (Elt F) := StableHlo.after hostOps1_3 (T3 W)
abbrev T5 (W : Valuation τ sig (Elt F)) : Valuation τ sig (Elt F) := StableHlo.after hostOps1_4 (T4 W)
abbrev T6 (W : Valuation τ sig (Elt F)) : Valuation τ sig (Elt F) := StableHlo.after hostOps1_5 (T5 W)
abbrev T7 (W : Valuation τ sig (Elt F)) : Valuation τ sig (Elt F) := StableHlo.after hostOps1_6 (T6 W)
abbrev T8 (W : Valuation τ sig (Elt F)) : Valuation τ sig (Elt F) := StableHlo.after hostOps1_7 (T7 W)
abbrev T9 (W : Valuation τ sig (Elt F)) : Valuation τ sig (Elt F) := StableHlo.after hostOps1_8 (T8 W)
abbrev T10 (W : Valuation τ sig (Elt F)) : Valuation τ sig (Elt F) := StableHlo.after hostOps1_9 (T9 W)

end Cert.Kernel.Hand

end
-- ==== Proof.K.Run.lean ====
/-
  The launch of the program, for any float values: @main is the kernel region followed by ten stretches of host
  operations. Between two segments the core holds every unscoped buffer whole at the boundary's contents: the launch
  memory at the region's entry; at its exit the same with the result array at what the eight write-backs leave; then the
  fold of the host stretches. The batch array is read by two windows of the region: at the entry its points-to is
  split into the two half shares the proof data names, at the exit the halves (both at the launch contents: an input
  array is never written) are joined again. The run ends with EVERY unscoped buffer at the last boundary's contents.
-/
import proofs.«400402_j52682068853382_2_alg».proof.Proof.K.Body
import proofs.«400402_j52682068853382_2_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the segment boundaries -/

/-- Core `c`'s buffers at launch: the region's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- The result window alone, as a family of one window: the one array the region writes. -/
abbrev specOut : Fin 1 → Pipeline.WinSpec sig grid0.rank := fun _ => spec0 2

/-- At the region's exit: the result array at what the write-backs leave, every other buffer as launched. -/
def W1 (c : Dev nD) : Valuation τ sig (Elt F) :=
  Pipeline.withArrays specOut c (W0 m ρ c) fun _ => (dat0 (V0 m ρ) c).arrAt 2 cfg0.N
abbrev V1 : (c : Dev nD) → (b : Ref sig .tc) → Buf (Elt F) ((c : Thread nD τ).loc b) := fun c b => W1 m ρ c b

theorem W1_out (c : Dev nD) : W1 m ρ c (Proc.devRef .tc main_v0) = (dat0 (V0 m ρ) c).arrAt 2 cfg0.N := by
  unfold W1
  exact Pipeline.withArrays_arr specOut (fun a b _ => Subsingleton.elim a b) c _ _ 0

theorem W1_of_ne (c : Dev nD) (b : Ref sig .tc) (hb : main_v0 ≠ b) :
    W1 m ρ c (Proc.devRef .tc b) = W0 m ρ c (Proc.devRef .tc b) := by
  unfold W1
  exact Pipeline.withArrays_of_ne specOut c _ _ b fun _ => hb

/-- The contents at the return: the ten host stretches folded over the region's exit. -/
abbrev Wfin (c : Dev nD) : Valuation τ sig (Elt F) := T10 (W1 m ρ c)

/-! ## The proof data, the thread state -/

abbrev adm : (p : Fin 1) → (pcfgs (F := F) p).Adm := fun p => (cfgs p).toPCfg_adm

def pdats : (p : Fin 1) → (c : Dev nD) → Dat τ (Elt F) Unit ℕ (UR sig nD τ) ℕ (Pipeline.pin (pcfgs (F := F)) adm p) c
  | ⟨0, _⟩ => fun c => dat0 (V0 m ρ) c

abbrev 𝒱₀ : Variants := Variants.none
abbrev L : GSem nD τ sig → Finset Unit := fun _ => ∅
abbrev lv : GSem nD τ sig → Unit → ℕ := fun _ _ => 0

/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last boundary's contents, the generator
    register at some state. -/
abbrev Tₙ (c : Dev nD) : sProp 𝕄 := iprop(StableHlo.held (c : Thread nD τ) (Pipeline.ucRefs τ sig) (Wfin m ρ c) ∗ ∃ r, prngReg c r)

/-! ## The region's arrays: the batch through two windows, the result through one -/

/-- The buffers behind the windows' arrays are the batch's and the result's. -/
theorem arrImage : Finset.univ.image (Pipeline.arrRef spec0) = ([main_arg0, main_v0] : List (Ref sig .tc)).toFinset := by decide

/-- The buffers behind the arrays, whole, one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v0) ↦{fullShare} V main_v0)) := by
  unfold Pipeline.arrBufs
  exact bigSep_eq_bigSepL_of_eq [main_arg0, main_v0] arrImage (by decide) _

/-- The pipeline's arrays at contents `G`, window by window: the batch's array at the left and at the right half share,
    the result's whole. -/
theorem arrays_eq3 (c : Dev nD) (G : (w : Fin cfg0.W) → Buf (Elt F) ((cfg0.win w).arr.view.loc (c : Thread nD τ))) :
    ((dat0 (V0 m ρ) c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0]
  simp only [Memref.view_whole, View.set_whole]
  rfl

/-! ## The region as a segment -/

theorem V1_rest (c : Dev nD) :
    (Pipeline.unscopedRest (Ix := Unit) (Name := ℕ) (U := UR sig nD τ) (Lvl := ℕ) spec0 c (V1 m ρ c) : sProp 𝕄)
      = Pipeline.unscopedRest spec0 c (V0 m ρ c) := by
  unfold Pipeline.unscopedRest
  refine bigSep_congr fun b hb => ?_
  have hne : main_v0 ≠ b := fun e => (Finset.mem_sdiff.mp hb).2 (Finset.mem_image.mpr ⟨2, Finset.mem_univ _, e⟩)
  rw [show V1 m ρ c b = V0 m ρ c b from W1_of_ne m ρ c b hne]

theorem V1_arg0 (c : Dev nD) : V1 m ρ c main_arg0 = V0 m ρ c main_arg0 := W1_of_ne m ρ c main_arg0 (by decide)

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit : (StableHlo.held (c : Thread nD τ) (Pipeline.ucRefs τ sig) (W0 m ρ c) : sProp 𝕄)
        = iprop((Pipeline.arrBufs spec0 c (V0 m ρ c) : sProp 𝕄) ∗ Pipeline.unscopedRest spec0 c (V0 m ρ c)) := by
      rw [← Pipeline.unscopedBufs_held]
      exact Pipeline.unscopedBufs_split₀ cfgs 0 winFacts₀0.arr_unscoped c (V0 m ρ c)
    rw [hsplit, arrBufs_eq]
    show _ ⊢ |={Set.univ}=> iprop((dat0 (V0 m ρ) c).arrays ((dat0 (V0 m ρ) c).arrAt · 0) ∗ _)
    rw [arrays_eq3]
    iintro ⟨⟨⟨⟨Ha, Hv⟩, Hrest⟩, Hp, HO⟩, -, -⟩
    ihave Ha2 := (pointsTo_share (PosShare.mem_left_op_right fullShare)).1 $$ Ha
    icases Ha2 with ⟨Hl, Hr⟩
    imodintro
    isplitl [Hl Hr Hv]
    · isplitl [Hl]; · iexact Hl
      isplitl [Hr]; · iexact Hr
      iexact Hv
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : (StableHlo.held (c : Thread nD τ) (Pipeline.ucRefs τ sig) (W1 m ρ c) : sProp 𝕄)
        = iprop((Pipeline.arrBufs spec0 c (V1 m ρ c) : sProp 𝕄) ∗ Pipeline.unscopedRest spec0 c (V1 m ρ c)) := by
      rw [← Pipeline.unscopedBufs_held]
      exact Pipeline.unscopedBufs_split₀ cfgs 0 winFacts₀0.arr_unscoped c (V1 m ρ c)
    rw [hjoin, arrBufs_eq, V1_rest, V1_arg0, show V1 m ρ c main_v0 = (dat0 (V0 m ρ) c).arrAt 2 cfg0.N from W1_out m ρ c]
    show iprop((dat0 (V0 m ρ) c).arrays ((dat0 (V0 m ρ) c).arrAt · cfg0.N) ∗ _) ⊢ _
    rw [arrays_eq3, (dat0 (V0 m ρ) c).arrAt_in 0 rfl, (dat0 (V0 m ρ) c).arrAt_in 1 rfl,
      show (dat0 (V0 m ρ) c).A 0 = V0 m ρ c main_arg0 from rfl, show (dat0 (V0 m ρ) c).A 1 = V0 m ρ c main_arg0 from rfl]
    iintro ⟨⟨Hl, Hr, Hv⟩, HO, HY, Hrest⟩
    ihave Ha := (pointsTo_share (PosShare.mem_left_op_right fullShare)).2 $$ [Hl Hr]
    · isplitl [Hl] <;> iassumption
    imodintro
    isplitl [Ha Hv Hrest]
    · isplitl [Ha Hv]
      · isplitl [Ha]; · iexact Ha
        iexact Hv
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (fun c => T1 (W1 m ρ c))),
    .host (hseg hostOps1_2 hostOps1_2_sub hostOps1_2_fresh (fun c => T2 (W1 m ρ c))),
    .host (hseg hostOps1_3 hostOps1_3_sub hostOps1_3_fresh (fun c => T3 (W1 m ρ c))),
    .host (hseg hostOps1_4 hostOps1_4_sub hostOps1_4_fresh (fun c => T4 (W1 m ρ c))),
    .host (hseg hostOps1_5 hostOps1_5_sub hostOps1_5_fresh (fun c => T5 (W1 m ρ c))),
    .host (hseg hostOps1_6 hostOps1_6_sub hostOps1_6_fresh (fun c => T6 (W1 m ρ c))),
    .host (hseg hostOps1_7 hostOps1_7_sub hostOps1_7_fresh (fun c => T7 (W1 m ρ c))),
    .host (hseg hostOps1_8 hostOps1_8_sub hostOps1_8_fresh (fun c => T8 (W1 m ρ c))),
    .host (hseg hostOps1_9 hostOps1_9_sub hostOps1_9_fresh (fun c => T9 (W1 m ρ c))) ]

theorem main_run (c : Dev nD) : main (F := F) c = Pipeline.Seg.run (segs m ρ) := (main_chain c).trans (by chain_rfl)

set_option backward.isDefEq.respectTransparency.types false in
/-- At the compiled mesh, for any float values, from any memory with zero counters: every weakly fair execution of
    @main on the TensorCores terminates, nothing faulting, and every final state has every unscoped buffer of each
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wfin m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (Wfin m ρ c) ∗ R c) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wfin m ρ c b)
    (hfin := fun c s' => by
      iintro ⟨⟨Hh, -⟩, HSI⟩
      unfold StableHlo.held
      imodintro
      iapply (pointsTo_read_all (Pipeline.ucRefs τ sig) (fun b => (((c : Thread nD τ)).1, b)) (Wfin m ρ c) s')
      isplitl [Hh] <;> iassumption)
    (hQ := fun s h c => h c)

end Cert.Kernel.Hand

end
-- ==== Proof.K.Kept.lean ====
/-
  No host operation of the tail writes an argument of @main: each stretch's operations write their own result
  buffers only, so the fold at an argument's buffer walks back, stretch by stretch, to the contents at the
  region's exit.
-/
import proofs.«400402_j52682068853382_2_alg».proof.Proof.K.Fold
import Idealize.ShloMosaic.Lib.StableHlo.Run

noncomputable section

namespace Cert.Kernel.Hand

open Cert.Kernel Cert.Kernel.Gen
open Idealize.ShloMosaic Idealize.ShloMosaic.TcCoe

variable {F : FTy → Type} [FloatOps F]

/-- One stretch leaves a buffer that none of its operations writes: the written buffers are the operations'
    result buffers, each a reference other than the one asked about. -/
local macro "kept_step" : tactic => `(tactic| (
  refine StableHlo.after_of_forall_not_mem _ _ (List.forall_iff_forall_mem.mp ?_)
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

theorem T10_arg0 (W : Valuation τ sig (Elt F)) :
    T10 W (Proc.devRef .tc main_arg0) = W (Proc.devRef .tc main_arg0) :=
  calc T10 W (Proc.devRef .tc main_arg0)
    _ = T9 W (Proc.devRef .tc main_arg0) := by kept_step
    _ = T8 W (Proc.devRef .tc main_arg0) := by kept_step
    _ = T7 W (Proc.devRef .tc main_arg0) := by kept_step
    _ = T6 W (Proc.devRef .tc main_arg0) := by kept_step
    _ = T5 W (Proc.devRef .tc main_arg0) := by kept_step
    _ = T4 W (Proc.devRef .tc main_arg0) := by kept_step
    _ = T3 W (Proc.devRef .tc main_arg0) := by kept_step
    _ = T2 W (Proc.devRef .tc main_arg0) := by kept_step
    _ = T1 W (Proc.devRef .tc main_arg0) := by kept_step
    _ = W (Proc.devRef .tc main_arg0) := by kept_step

theorem T10_arg1 (W : Valuation τ sig (Elt F)) :
    T10 W (Proc.devRef .tc main_arg1) = W (Proc.devRef .tc main_arg1) :=
  calc T10 W (Proc.devRef .tc main_arg1)
    _ = T9 W (Proc.devRef .tc main_arg1) := by kept_step
    _ = T8 W (Proc.devRef .tc main_arg1) := by kept_step
    _ = T7 W (Proc.devRef .tc main_arg1) := by kept_step
    _ = T6 W (Proc.devRef .tc main_arg1) := by kept_step
    _ = T5 W (Proc.devRef .tc main_arg1) := by kept_step
    _ = T4 W (Proc.devRef .tc main_arg1) := by kept_step
    _ = T3 W (Proc.devRef .tc main_arg1) := by kept_step
    _ = T2 W (Proc.devRef .tc main_arg1) := by kept_step
    _ = T1 W (Proc.devRef .tc main_arg1) := by kept_step
    _ = W (Proc.devRef .tc main_arg1) := by kept_step

theorem T10_arg2 (W : Valuation τ sig (Elt F)) :
    T10 W (Proc.devRef .tc main_arg2) = W (Proc.devRef .tc main_arg2) :=
  calc T10 W (Proc.devRef .tc main_arg2)
    _ = T9 W (Proc.devRef .tc main_arg2) := by kept_step
    _ = T8 W (Proc.devRef .tc main_arg2) := by kept_step
    _ = T7 W (Proc.devRef .tc main_arg2) := by kept_step
    _ = T6 W (Proc.devRef .tc main_arg2) := by kept_step
    _ = T5 W (Proc.devRef .tc main_arg2) := by kept_step
    _ = T4 W (Proc.devRef .tc main_arg2) := by kept_step
    _ = T3 W (Proc.devRef .tc main_arg2) := by kept_step
    _ = T2 W (Proc.devRef .tc main_arg2) := by kept_step
    _ = T1 W (Proc.devRef .tc main_arg2) := by kept_step
    _ = W (Proc.devRef .tc main_arg2) := by kept_step

theorem T10_arg3 (W : Valuation τ sig (Elt F)) :
    T10 W (Proc.devRef .tc main_arg3) = W (Proc.devRef .tc main_arg3) :=
  calc T10 W (Proc.devRef .tc main_arg3)
    _ = T9 W (Proc.devRef .tc main_arg3) := by kept_step
    _ = T8 W (Proc.devRef .tc main_arg3) := by kept_step
    _ = T7 W (Proc.devRef .tc main_arg3) := by kept_step
    _ = T6 W (Proc.devRef .tc main_arg3) := by kept_step
    _ = T5 W (Proc.devRef .tc main_arg3) := by kept_step
    _ = T4 W (Proc.devRef .tc main_arg3) := by kept_step
    _ = T3 W (Proc.devRef .tc main_arg3) := by kept_step
    _ = T2 W (Proc.devRef .tc main_arg3) := by kept_step
    _ = T1 W (Proc.devRef .tc main_arg3) := by kept_step
    _ = W (Proc.devRef .tc main_arg3) := by kept_step

theorem T10_arg4 (W : Valuation τ sig (Elt F)) :
    T10 W (Proc.devRef .tc main_arg4) = W (Proc.devRef .tc main_arg4) :=
  calc T10 W (Proc.devRef .tc main_arg4)
    _ = T9 W (Proc.devRef .tc main_arg4) := by kept_step
    _ = T8 W (Proc.devRef .tc main_arg4) := by kept_step
    _ = T7 W (Proc.devRef .tc main_arg4) := by kept_step
    _ = T6 W (Proc.devRef .tc main_arg4) := by kept_step
    _ = T5 W (Proc.devRef .tc main_arg4) := by kept_step
    _ = T4 W (Proc.devRef .tc main_arg4) := by kept_step
    _ = T3 W (Proc.devRef .tc main_arg4) := by kept_step
    _ = T2 W (Proc.devRef .tc main_arg4) := by kept_step
    _ = T1 W (Proc.devRef .tc main_arg4) := by kept_step
    _ = W (Proc.devRef .tc main_arg4) := by kept_step

end Cert.Kernel.Hand

end
-- ==== Proof.K.Ends.lean ====
/-
  What the run leaves, for any float values: no host operation and no write-back touches an argument array, so each
  ends as launched (the frame); the result buffer ends at the last boundary's contents.
-/
import proofs.«400402_j52682068853382_2_alg».proof.Proof.K.Run
import proofs.«400402_j52682068853382_2_alg».proof.Proof.K.Kept

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem Wfin_arg0 (c : Dev nD) : Wfin m ρ c (Proc.devRef .tc main_arg0) = m ((c : Thread nD τ).loc main_arg0) :=
  (T10_arg0 (W1 m ρ c)).trans (W1_of_ne m ρ c main_arg0 (by decide))
theorem Wfin_arg1 (c : Dev nD) : Wfin m ρ c (Proc.devRef .tc main_arg1) = m ((c : Thread nD τ).loc main_arg1) :=
  (T10_arg1 (W1 m ρ c)).trans (W1_of_ne m ρ c main_arg1 (by decide))
theorem Wfin_arg2 (c : Dev nD) : Wfin m ρ c (Proc.devRef .tc main_arg2) = m ((c : Thread nD τ).loc main_arg2) :=
  (T10_arg2 (W1 m ρ c)).trans (W1_of_ne m ρ c main_arg2 (by decide))
theorem Wfin_arg3 (c : Dev nD) : Wfin m ρ c (Proc.devRef .tc main_arg3) = m ((c : Thread nD τ).loc main_arg3) :=
  (T10_arg3 (W1 m ρ c)).trans (W1_of_ne m ρ c main_arg3 (by decide))
theorem Wfin_arg4 (c : Dev nD) : Wfin m ρ c (Proc.devRef .tc main_arg4) = m ((c : Thread nD τ).loc main_arg4) :=
  (T10_arg4 (W1 m ρ c)).trans (W1_of_ne m ρ c main_arg4 (by decide))

/-- The run with the result named and the arguments unchanged. -/
theorem run_value : θ_run defs (onTc (τ := τ) (main (F := F))) ⟨m, fun _ => 0, ρ⟩ (fun r => ∀ c : Dev nD,
      r.2.mem ((c.tc : Thread nD τ).loc main_v46) = Wfin m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v46 (by decide)),
     (h c _ (mem_uc main_arg0 (by decide))).trans (Wfin_arg0 m ρ c),
     (h c _ (mem_uc main_arg1 (by decide))).trans (Wfin_arg1 m ρ c),
     (h c _ (mem_uc main_arg2 (by decide))).trans (Wfin_arg2 m ρ c),
     (h c _ (mem_uc main_arg3 (by decide))).trans (Wfin_arg3 m ρ c),
     (h c _ (mem_uc main_arg4 (by decide))).trans (Wfin_arg4 m ρ c)⟩) (run_all m ρ)

/-- The frame: the run ends, nothing faults, the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_value m ρ)

end Cert.Kernel.Hand

end
-- ==== Proof.KI.Body.lean ====
/-
  The kernel body of the row-minimum distance kernel, for any float values: what each staging buffer holds after the
  body at a grid point, the body's triple, the pipeline's proof data and the body obligation.

  The pipeline has three windows: window 0 is the row block (512 rows of the batch), window 1 the whole batch (both on
  the one argument array), window 2 the block of 512 results the point writes back. The body loads the two input
  buffers whole, computes one value from them (the skeleton's payload) and stores it over the whole result buffer; it
  also loads the result buffer once and does not use what it read.
-/
import proofs.«400402_j52682068853382_2_alg».proof.Proof.Gen.KernelIdeal.Launch
import proofs.«400402_j52682068853382_2_alg».proof.Proof.Gen.KernelIdeal.Skeleton
import proofs.«400402_j52682068853382_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each buffer whole -/

abbrev rRows : Rect S512x256 := Rect.unit (s := S512x256) ![0, 0] S512x256.size inb_S512x256_S512x256_0_0
abbrev rAll : Rect S4096x256 := Rect.unit (s := S4096x256) ![0, 0] S4096x256.size inb_S4096x256_S4096x256_0_0
abbrev rOut : Rect S1x512 := Rect.unit (s := S1x512) ![0, 0] S1x512.size inb_S1x512_S1x512_0_0

/-- The result buffer after the body, from the two input buffers' contents: its one store as a piece. -/
def outRow (i : grid0.Coords) (x0 : Vec F S512x256 .f32) (x1 : Vec F S4096x256 .f32) : Vec F S1x512 .f32 :=
  View.canon [⟨rOut, k0_pay1 i (View.ld x0 rRows) (View.ld x1 rAll)⟩]

/-- The one store covers the result buffer. -/
theorem cover_out (p0 : Vec F S1x512 .f32) (y : S1x512.Idx) :
    ∃ pc ∈ ([⟨rOut, p0⟩] : List (View.Piece (Elt F) S1x512 .f32)), y ∈ pc.1.set :=
  View.cover_of_tiled [⟨rOut, p0⟩] S1x512.size (by rfl) y

/-! ## The body's triple -/

set_option maxHeartbeats 1000000 in
/-- The body on whole staging memrefs, the inputs' at read contents `x0`, `x1` and the result's at anything, runs to the
    continuation holding the inputs' as they were and the result's at `outRow` of them. -/
theorem sound_kernel (c : Dev nD) (E : Set ℕ) (i : grid0.Coords)
    (arg1 : Memref sig .tc .vmem S512x256 .f32) (harg1 : arg1.IsWhole) (arg2 : Memref sig .tc .vmem S4096x256 .f32) (harg2 : arg2.IsWhole)
    (arg3 : Memref sig .tc .vmem S1x512 .f32) (harg3 : arg3.IsWhole)
    (x0 : Vec F S512x256 .f32) (x1 : Vec F S4096x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outRow i x0 x1)) -∗ K ⟨⟩))
      ⊢ wp frame (wpE (defs₀ (F := F)) Variants.none c none) E (cc0__min_log_dist_kernel i arg1 harg1 arg2 harg2 arg3 harg3) K := by
  simp only [cc0__min_log_dist_kernel_eq_skeleton]; unfold cc0__min_log_dist_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data on core `c`: the arrays as the region finds them; after the body at point `t` each input's buffer at
    its block and the result's at `outRow` of the input blocks; the invariant the scoped rest and the generator register,
    untouched; nothing owed. The batch's array is read through two windows, each holding half of it. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outRow (grid0.coords t) (iblk V c 0 t) (iblk V c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) :
    (dat0 V c).after 2 t = outRow (grid0.coords t) (iblk V c 0 t) (iblk V c 1 t) := by dsimp only [dat0]

/-- Each input's current staging buffer holds its block at every point, fetched there or not. -/
theorem before_0 (c : Dev nD) (t : Fin cfg0.N) (d) : (dat0 V c).before 0 t d = iblk V c 0 t :=
  ((dat0 V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 V c).before 1 t d = iblk V c 1 t :=
  ((dat0 V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body obligation, at a generic point -/

/-- What the body is called with at point `t`: the invariant, what the core owes, and each window's current staging
    buffer at what it then holds. -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same with each buffer at what the body leaves. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, the result's holds anything, so the body's triple
    applies; the invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat0 V c).Φ t.succ = (dat0 V c).Φ t.castSucc from rfl,
    show (dat0 V c).owesAt () t.succ = (dat0 V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Hand

end
-- ==== Proof.KI.Fold.lean ====
/-
  The host operations that follow the kernel region, as one fold of buffer contents: `Tk W` is what every buffer holds
  after the first `k` stretches of @main's tail, from the contents `W` at the region's exit.
-/
import proofs.«400402_j52682068853382_2_alg».proof.Proof.Gen.KernelIdeal.Launch

noncomputable section

namespace Cert.KernelIdeal.Hand

open Cert.KernelIdeal Cert.KernelIdeal.Gen
open Idealize.ShloMosaic Idealize.ShloMosaic.TcCoe

variable {F : FTy → Type} [FloatOps F]

abbrev T1 (W : Valuation τ sig (Elt F)) : Valuation τ sig (Elt F) := StableHlo.after hostOps1 W
abbrev T2 (W : Valuation τ sig (Elt F)) : Valuation τ sig (Elt F) := StableHlo.after hostOps1_1 (T1 W)
abbrev T3 (W : Valuation τ sig (Elt F)) : Valuation τ sig (Elt F) := StableHlo.after hostOps1_2 (T2 W)
abbrev T4 (W : Valuation τ sig (Elt F)) : Valuation τ sig (Elt F) := StableHlo.after hostOps1_3 (T3 W)
abbrev T5 (W : Valuation τ sig (Elt F)) : Valuation τ sig (Elt F) := StableHlo.after hostOps1_4 (T4 W)
abbrev T6 (W : Valuation τ sig (Elt F)) : Valuation τ sig (Elt F) := StableHlo.after hostOps1_5 (T5 W)
abbrev T7 (W : Valuation τ sig (Elt F)) : Valuation τ sig (Elt F) := StableHlo.after hostOps1_6 (T6 W)
abbrev T8 (W : Valuation τ sig (Elt F)) : Valuation τ sig (Elt F) := StableHlo.after hostOps1_7 (T7 W)
abbrev T9 (W : Valuation τ sig (Elt F)) : Valuation τ sig (Elt F) := StableHlo.after hostOps1_8 (T8 W)
abbrev T10 (W : Valuation τ sig (Elt F)) : Valuation τ sig (Elt F) := StableHlo.after hostOps1_9 (T9 W)

end Cert.KernelIdeal.Hand

end
-- ==== Proof.KI.Run.lean ====
/-
  The launch of the program, for any float values: @main is the kernel region followed by ten stretches of host
  operations. Between two segments the core holds every unscoped buffer whole at the boundary's contents: the launch
  memory at the region's entry; at its exit the same with the result array at what the eight write-backs leave; then the
  fold of the host stretches. The batch array is read by two windows of the region: at the entry its points-to is
  split into the two half shares the proof data names, at the exit the halves (both at the launch contents: an input
  array is never written) are joined again. The run ends with EVERY unscoped buffer at the last boundary's contents.
-/
import proofs.«400402_j52682068853382_2_alg».proof.Proof.KI.Body
import proofs.«400402_j52682068853382_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the segment boundaries -/

/-- Core `c`'s buffers at launch: the region's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- The result window alone, as a family of one window: the one array the region writes. -/
abbrev specOut : Fin 1 → Pipeline.WinSpec sig grid0.rank := fun _ => spec0 2

/-- At the region's exit: the result array at what the write-backs leave, every other buffer as launched. -/
def W1 (c : Dev nD) : Valuation τ sig (Elt F) :=
  Pipeline.withArrays specOut c (W0 m ρ c) fun _ => (dat0 (V0 m ρ) c).arrAt 2 cfg0.N
abbrev V1 : (c : Dev nD) → (b : Ref sig .tc) → Buf (Elt F) ((c : Thread nD τ).loc b) := fun c b => W1 m ρ c b

theorem W1_out (c : Dev nD) : W1 m ρ c (Proc.devRef .tc main_v0) = (dat0 (V0 m ρ) c).arrAt 2 cfg0.N := by
  unfold W1
  exact Pipeline.withArrays_arr specOut (fun a b _ => Subsingleton.elim a b) c _ _ 0

theorem W1_of_ne (c : Dev nD) (b : Ref sig .tc) (hb : main_v0 ≠ b) :
    W1 m ρ c (Proc.devRef .tc b) = W0 m ρ c (Proc.devRef .tc b) := by
  unfold W1
  exact Pipeline.withArrays_of_ne specOut c _ _ b fun _ => hb

/-- The contents at the return: the ten host stretches folded over the region's exit. -/
abbrev Wfin (c : Dev nD) : Valuation τ sig (Elt F) := T10 (W1 m ρ c)

/-! ## The proof data, the thread state -/

abbrev adm : (p : Fin 1) → (pcfgs (F := F) p).Adm := fun p => (cfgs p).toPCfg_adm

def pdats : (p : Fin 1) → (c : Dev nD) → Dat τ (Elt F) Unit ℕ (UR sig nD τ) ℕ (Pipeline.pin (pcfgs (F := F)) adm p) c
  | ⟨0, _⟩ => fun c => dat0 (V0 m ρ) c

abbrev 𝒱₀ : Variants := Variants.none
abbrev L : GSem nD τ sig → Finset Unit := fun _ => ∅
abbrev lv : GSem nD τ sig → Unit → ℕ := fun _ _ => 0

/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last boundary's contents, the generator
    register at some state. -/
abbrev Tₙ (c : Dev nD) : sProp 𝕄 := iprop(StableHlo.held (c : Thread nD τ) (Pipeline.ucRefs τ sig) (Wfin m ρ c) ∗ ∃ r, prngReg c r)

/-! ## The region's arrays: the batch through two windows, the result through one -/

/-- The buffers behind the windows' arrays are the batch's and the result's. -/
theorem arrImage : Finset.univ.image (Pipeline.arrRef spec0) = ([main_arg0, main_v0] : List (Ref sig .tc)).toFinset := by decide

/-- The buffers behind the arrays, whole, one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v0) ↦{fullShare} V main_v0)) := by
  unfold Pipeline.arrBufs
  exact bigSep_eq_bigSepL_of_eq [main_arg0, main_v0] arrImage (by decide) _

/-- The pipeline's arrays at contents `G`, window by window: the batch's array at the left and at the right half share,
    the result's whole. -/
theorem arrays_eq3 (c : Dev nD) (G : (w : Fin cfg0.W) → Buf (Elt F) ((cfg0.win w).arr.view.loc (c : Thread nD τ))) :
    ((dat0 (V0 m ρ) c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0]
  simp only [Memref.view_whole, View.set_whole]
  rfl

/-! ## The region as a segment -/

theorem V1_rest (c : Dev nD) :
    (Pipeline.unscopedRest (Ix := Unit) (Name := ℕ) (U := UR sig nD τ) (Lvl := ℕ) spec0 c (V1 m ρ c) : sProp 𝕄)
      = Pipeline.unscopedRest spec0 c (V0 m ρ c) := by
  unfold Pipeline.unscopedRest
  refine bigSep_congr fun b hb => ?_
  have hne : main_v0 ≠ b := fun e => (Finset.mem_sdiff.mp hb).2 (Finset.mem_image.mpr ⟨2, Finset.mem_univ _, e⟩)
  rw [show V1 m ρ c b = V0 m ρ c b from W1_of_ne m ρ c b hne]

theorem V1_arg0 (c : Dev nD) : V1 m ρ c main_arg0 = V0 m ρ c main_arg0 := W1_of_ne m ρ c main_arg0 (by decide)

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit : (StableHlo.held (c : Thread nD τ) (Pipeline.ucRefs τ sig) (W0 m ρ c) : sProp 𝕄)
        = iprop((Pipeline.arrBufs spec0 c (V0 m ρ c) : sProp 𝕄) ∗ Pipeline.unscopedRest spec0 c (V0 m ρ c)) := by
      rw [← Pipeline.unscopedBufs_held]
      exact Pipeline.unscopedBufs_split₀ cfgs 0 winFacts₀0.arr_unscoped c (V0 m ρ c)
    rw [hsplit, arrBufs_eq]
    show _ ⊢ |={Set.univ}=> iprop((dat0 (V0 m ρ) c).arrays ((dat0 (V0 m ρ) c).arrAt · 0) ∗ _)
    rw [arrays_eq3]
    iintro ⟨⟨⟨⟨Ha, Hv⟩, Hrest⟩, Hp, HO⟩, -, -⟩
    ihave Ha2 := (pointsTo_share (PosShare.mem_left_op_right fullShare)).1 $$ Ha
    icases Ha2 with ⟨Hl, Hr⟩
    imodintro
    isplitl [Hl Hr Hv]
    · isplitl [Hl]; · iexact Hl
      isplitl [Hr]; · iexact Hr
      iexact Hv
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : (StableHlo.held (c : Thread nD τ) (Pipeline.ucRefs τ sig) (W1 m ρ c) : sProp 𝕄)
        = iprop((Pipeline.arrBufs spec0 c (V1 m ρ c) : sProp 𝕄) ∗ Pipeline.unscopedRest spec0 c (V1 m ρ c)) := by
      rw [← Pipeline.unscopedBufs_held]
      exact Pipeline.unscopedBufs_split₀ cfgs 0 winFacts₀0.arr_unscoped c (V1 m ρ c)
    rw [hjoin, arrBufs_eq, V1_rest, V1_arg0, show V1 m ρ c main_v0 = (dat0 (V0 m ρ) c).arrAt 2 cfg0.N from W1_out m ρ c]
    show iprop((dat0 (V0 m ρ) c).arrays ((dat0 (V0 m ρ) c).arrAt · cfg0.N) ∗ _) ⊢ _
    rw [arrays_eq3, (dat0 (V0 m ρ) c).arrAt_in 0 rfl, (dat0 (V0 m ρ) c).arrAt_in 1 rfl,
      show (dat0 (V0 m ρ) c).A 0 = V0 m ρ c main_arg0 from rfl, show (dat0 (V0 m ρ) c).A 1 = V0 m ρ c main_arg0 from rfl]
    iintro ⟨⟨Hl, Hr, Hv⟩, HO, HY, Hrest⟩
    ihave Ha := (pointsTo_share (PosShare.mem_left_op_right fullShare)).2 $$ [Hl Hr]
    · isplitl [Hl] <;> iassumption
    imodintro
    isplitl [Ha Hv Hrest]
    · isplitl [Ha Hv]
      · isplitl [Ha]; · iexact Ha
        iexact Hv
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (fun c => T1 (W1 m ρ c))),
    .host (hseg hostOps1_2 hostOps1_2_sub hostOps1_2_fresh (fun c => T2 (W1 m ρ c))),
    .host (hseg hostOps1_3 hostOps1_3_sub hostOps1_3_fresh (fun c => T3 (W1 m ρ c))),
    .host (hseg hostOps1_4 hostOps1_4_sub hostOps1_4_fresh (fun c => T4 (W1 m ρ c))),
    .host (hseg hostOps1_5 hostOps1_5_sub hostOps1_5_fresh (fun c => T5 (W1 m ρ c))),
    .host (hseg hostOps1_6 hostOps1_6_sub hostOps1_6_fresh (fun c => T6 (W1 m ρ c))),
    .host (hseg hostOps1_7 hostOps1_7_sub hostOps1_7_fresh (fun c => T7 (W1 m ρ c))),
    .host (hseg hostOps1_8 hostOps1_8_sub hostOps1_8_fresh (fun c => T8 (W1 m ρ c))),
    .host (hseg hostOps1_9 hostOps1_9_sub hostOps1_9_fresh (fun c => T9 (W1 m ρ c))) ]

theorem main_run (c : Dev nD) : main (F := F) c = Pipeline.Seg.run (segs m ρ) := (main_chain c).trans (by chain_rfl)

set_option backward.isDefEq.respectTransparency.types false in
/-- At the compiled mesh, for any float values, from any memory with zero counters: every weakly fair execution of
    @main on the TensorCores terminates, nothing faulting, and every final state has every unscoped buffer of each
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wfin m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (Wfin m ρ c) ∗ R c) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wfin m ρ c b)
    (hfin := fun c s' => by
      iintro ⟨⟨Hh, -⟩, HSI⟩
      unfold StableHlo.held
      imodintro
      iapply (pointsTo_read_all (Pipeline.ucRefs τ sig) (fun b => (((c : Thread nD τ)).1, b)) (Wfin m ρ c) s')
      isplitl [Hh] <;> iassumption)
    (hQ := fun s h c => h c)

end Cert.KernelIdeal.Hand

end
-- ==== Proof.KI.Kept.lean ====
/-
  No host operation of the tail writes an argument of @main: each stretch's operations write their own result
  buffers only, so the fold at an argument's buffer walks back, stretch by stretch, to the contents at the
  region's exit.
-/
import proofs.«400402_j52682068853382_2_alg».proof.Proof.KI.Fold
import Idealize.ShloMosaic.Lib.StableHlo.Run

noncomputable section

namespace Cert.KernelIdeal.Hand

open Cert.KernelIdeal Cert.KernelIdeal.Gen
open Idealize.ShloMosaic Idealize.ShloMosaic.TcCoe

variable {F : FTy → Type} [FloatOps F]

/-- One stretch leaves a buffer that none of its operations writes: the written buffers are the operations'
    result buffers, each a reference other than the one asked about. -/
local macro "kept_step" : tactic => `(tactic| (
  refine StableHlo.after_of_forall_not_mem _ _ (List.forall_iff_forall_mem.mp ?_)
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

theorem T10_arg0 (W : Valuation τ sig (Elt F)) :
    T10 W (Proc.devRef .tc main_arg0) = W (Proc.devRef .tc main_arg0) :=
  calc T10 W (Proc.devRef .tc main_arg0)
    _ = T9 W (Proc.devRef .tc main_arg0) := by kept_step
    _ = T8 W (Proc.devRef .tc main_arg0) := by kept_step
    _ = T7 W (Proc.devRef .tc main_arg0) := by kept_step
    _ = T6 W (Proc.devRef .tc main_arg0) := by kept_step
    _ = T5 W (Proc.devRef .tc main_arg0) := by kept_step
    _ = T4 W (Proc.devRef .tc main_arg0) := by kept_step
    _ = T3 W (Proc.devRef .tc main_arg0) := by kept_step
    _ = T2 W (Proc.devRef .tc main_arg0) := by kept_step
    _ = T1 W (Proc.devRef .tc main_arg0) := by kept_step
    _ = W (Proc.devRef .tc main_arg0) := by kept_step

theorem T10_arg1 (W : Valuation τ sig (Elt F)) :
    T10 W (Proc.devRef .tc main_arg1) = W (Proc.devRef .tc main_arg1) :=
  calc T10 W (Proc.devRef .tc main_arg1)
    _ = T9 W (Proc.devRef .tc main_arg1) := by kept_step
    _ = T8 W (Proc.devRef .tc main_arg1) := by kept_step
    _ = T7 W (Proc.devRef .tc main_arg1) := by kept_step
    _ = T6 W (Proc.devRef .tc main_arg1) := by kept_step
    _ = T5 W (Proc.devRef .tc main_arg1) := by kept_step
    _ = T4 W (Proc.devRef .tc main_arg1) := by kept_step
    _ = T3 W (Proc.devRef .tc main_arg1) := by kept_step
    _ = T2 W (Proc.devRef .tc main_arg1) := by kept_step
    _ = T1 W (Proc.devRef .tc main_arg1) := by kept_step
    _ = W (Proc.devRef .tc main_arg1) := by kept_step

theorem T10_arg2 (W : Valuation τ sig (Elt F)) :
    T10 W (Proc.devRef .tc main_arg2) = W (Proc.devRef .tc main_arg2) :=
  calc T10 W (Proc.devRef .tc main_arg2)
    _ = T9 W (Proc.devRef .tc main_arg2) := by kept_step
    _ = T8 W (Proc.devRef .tc main_arg2) := by kept_step
    _ = T7 W (Proc.devRef .tc main_arg2) := by kept_step
    _ = T6 W (Proc.devRef .tc main_arg2) := by kept_step
    _ = T5 W (Proc.devRef .tc main_arg2) := by kept_step
    _ = T4 W (Proc.devRef .tc main_arg2) := by kept_step
    _ = T3 W (Proc.devRef .tc main_arg2) := by kept_step
    _ = T2 W (Proc.devRef .tc main_arg2) := by kept_step
    _ = T1 W (Proc.devRef .tc main_arg2) := by kept_step
    _ = W (Proc.devRef .tc main_arg2) := by kept_step

theorem T10_arg3 (W : Valuation τ sig (Elt F)) :
    T10 W (Proc.devRef .tc main_arg3) = W (Proc.devRef .tc main_arg3) :=
  calc T10 W (Proc.devRef .tc main_arg3)
    _ = T9 W (Proc.devRef .tc main_arg3) := by kept_step
    _ = T8 W (Proc.devRef .tc main_arg3) := by kept_step
    _ = T7 W (Proc.devRef .tc main_arg3) := by kept_step
    _ = T6 W (Proc.devRef .tc main_arg3) := by kept_step
    _ = T5 W (Proc.devRef .tc main_arg3) := by kept_step
    _ = T4 W (Proc.devRef .tc main_arg3) := by kept_step
    _ = T3 W (Proc.devRef .tc main_arg3) := by kept_step
    _ = T2 W (Proc.devRef .tc main_arg3) := by kept_step
    _ = T1 W (Proc.devRef .tc main_arg3) := by kept_step
    _ = W (Proc.devRef .tc main_arg3) := by kept_step

theorem T10_arg4 (W : Valuation τ sig (Elt F)) :
    T10 W (Proc.devRef .tc main_arg4) = W (Proc.devRef .tc main_arg4) :=
  calc T10 W (Proc.devRef .tc main_arg4)
    _ = T9 W (Proc.devRef .tc main_arg4) := by kept_step
    _ = T8 W (Proc.devRef .tc main_arg4) := by kept_step
    _ = T7 W (Proc.devRef .tc main_arg4) := by kept_step
    _ = T6 W (Proc.devRef .tc main_arg4) := by kept_step
    _ = T5 W (Proc.devRef .tc main_arg4) := by kept_step
    _ = T4 W (Proc.devRef .tc main_arg4) := by kept_step
    _ = T3 W (Proc.devRef .tc main_arg4) := by kept_step
    _ = T2 W (Proc.devRef .tc main_arg4) := by kept_step
    _ = T1 W (Proc.devRef .tc main_arg4) := by kept_step
    _ = W (Proc.devRef .tc main_arg4) := by kept_step

end Cert.KernelIdeal.Hand

end
-- ==== Proof.KI.Ends.lean ====
/-
  What the run leaves, for any float values: no host operation and no write-back touches an argument array, so each
  ends as launched (the frame); the result buffer ends at the last boundary's contents.
-/
import proofs.«400402_j52682068853382_2_alg».proof.Proof.KI.Run
import proofs.«400402_j52682068853382_2_alg».proof.Proof.KI.Kept

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem Wfin_arg0 (c : Dev nD) : Wfin m ρ c (Proc.devRef .tc main_arg0) = m ((c : Thread nD τ).loc main_arg0) :=
  (T10_arg0 (W1 m ρ c)).trans (W1_of_ne m ρ c main_arg0 (by decide))
theorem Wfin_arg1 (c : Dev nD) : Wfin m ρ c (Proc.devRef .tc main_arg1) = m ((c : Thread nD τ).loc main_arg1) :=
  (T10_arg1 (W1 m ρ c)).trans (W1_of_ne m ρ c main_arg1 (by decide))
theorem Wfin_arg2 (c : Dev nD) : Wfin m ρ c (Proc.devRef .tc main_arg2) = m ((c : Thread nD τ).loc main_arg2) :=
  (T10_arg2 (W1 m ρ c)).trans (W1_of_ne m ρ c main_arg2 (by decide))
theorem Wfin_arg3 (c : Dev nD) : Wfin m ρ c (Proc.devRef .tc main_arg3) = m ((c : Thread nD τ).loc main_arg3) :=
  (T10_arg3 (W1 m ρ c)).trans (W1_of_ne m ρ c main_arg3 (by decide))
theorem Wfin_arg4 (c : Dev nD) : Wfin m ρ c (Proc.devRef .tc main_arg4) = m ((c : Thread nD τ).loc main_arg4) :=
  (T10_arg4 (W1 m ρ c)).trans (W1_of_ne m ρ c main_arg4 (by decide))

/-- The run with the result named and the arguments unchanged. -/
theorem run_value : θ_run defs (onTc (τ := τ) (main (F := F))) ⟨m, fun _ => 0, ρ⟩ (fun r => ∀ c : Dev nD,
      r.2.mem ((c.tc : Thread nD τ).loc main_v46) = Wfin m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v46 (by decide)),
     (h c _ (mem_uc main_arg0 (by decide))).trans (Wfin_arg0 m ρ c),
     (h c _ (mem_uc main_arg1 (by decide))).trans (Wfin_arg1 m ρ c),
     (h c _ (mem_uc main_arg2 (by decide))).trans (Wfin_arg2 m ρ c),
     (h c _ (mem_uc main_arg3 (by decide))).trans (Wfin_arg3 m ρ c),
     (h c _ (mem_uc main_arg4 (by decide))).trans (Wfin_arg4 m ρ c)⟩) (run_all m ρ)

/-- The frame: the run ends, nothing faults, the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_value m ρ)

end Cert.KernelIdeal.Hand

end
-- ==== Proof.KI.GlueDef.lean ====
/-
  The value of the host tail of @main as named pure functions: the two row gathers (the index wrapped into range,
  the in-range mask, the NaN fill), the two row distances, the gathered margin, the two hinge terms, their mean over
  the active rows, and the sum of the region's rows that is subtracted from it.
-/
import proofs.«400402_j52682068853382_2_alg».proof.KernelIdeal

noncomputable section

namespace Cert.KernelIdeal.Hand

open Idealize.ShloMosaic
open Cert.KernelIdeal Facts₀ Facts

variable {F : FTy → Type} [FloatOps F] [Facts]

/-- A row index wrapped into range from below (a negative index counts from the end), as a column of indices. -/
def wrapIdx (idx : IVec S4096 32) : IVec S4096x1 32 :=
  broadcastInDim S4096x1 ![0] bcast_S4096_S4096x1_0
    (select (cmpi .slt idx (broadcastInDim S4096 ![] bcast_S_S4096 (constantI S_ 32 0#32)))
      (addi idx (broadcastInDim S4096 ![] bcast_S_S4096 (constantI S_ 32 4096#32))) idx)

/-- The rows of `x0` at the wrapped indices. -/
def takeR (x0 : FVec F S4096x256 .f32) (idx : IVec S4096 32) : FVec F S4096x256 .f32 :=
  Host.gather gather_S4096x256_S4096x1_S4096x256_1_0_n_n_0_1_1256 x0 (wrapIdx idx)

/-- Per row, whether the wrapped index lies in `[0, 4095]`. -/
def inRange (J : IVec S4096x1 32) : IVec S4096 1 :=
  Host.reduce IntOp.andi
    (andi (cmpi .sge J (broadcastInDim S4096x1 ![] bcast_S_S4096x1 (constantI S_ 32 0#32)))
      (cmpi .sle J (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_

/-- The rows of `x0` at the wrapped indices where those are in range, a NaN row elsewhere. -/
def takeK (x0 : FVec F S4096x256 .f32) (idx : IVec S4096 32) : FVec F S4096x256 .f32 :=
  select (broadcastInDim S4096x256 ![0] bcast_S4096_S4096x256_0 (inRange (wrapIdx idx)))
    (Host.gather gather_S4096x256_S4096x1_S4096x256_1_0_n_n_0_1_1256 x0 (wrapIdx idx))
    (broadcastInDim S4096x256 ![] bcast_S_S4096x256 (constant S_ .f32 0x7FC00000#32))

/-- Per row, the distance `sqrt (Σ_c (x0 − xt)² + 1e-8)`. -/
def rowDist (x0 xt : FVec F S4096x256 .f32) : FVec F S4096 .f32 :=
  Host.sqrt (addf
    (Host.reduceAdd (mulf (subf x0 xt) (subf x0 xt)) (constant S_ .f32 0x00000000#32) reducesTo_S4096x256_S4096_d1 h_S_)
    (broadcastInDim S4096 ![] bcast_S_S4096 (constant S_ .f32 0x322BCC77#32)))

/-- Per row, the margin `x1[x2]` (a negative label counts from the end). -/
def betaAt (x1 : FVec F S100 .f32) (x2 : IVec S4096 32) : FVec F S4096 .f32 :=
  Host.gather gather_S100_S4096x1_S4096_n_0_n_n_0_1_1 x1
    (broadcastInDim S4096x1 ![0] bcast_S4096_S4096x1_0
      (select (cmpi .slt x2 (broadcastInDim S4096 ![] bcast_S_S4096 (constantI S_ 32 0#32)))
        (addi x2 (broadcastInDim S4096 ![] bcast_S_S4096 (constantI S_ 32 100#32))) x2))

/-- The hinge `max (a − b + 0.2) 0`, per row. -/
def hinge (a b : FVec F S4096 .f32) : FVec F S4096 .f32 :=
  maximumf (addf (subf a b) (broadcastInDim S4096 ![] bcast_S_S4096 (constant S_ .f32 0x3E4CCCCD#32)))
    (broadcastInDim S4096 ![] bcast_S_S4096 (constant S_ .f32 0x00000000#32))

/-- The number of rows at which one of the two hinge terms is positive, as a float. -/
def activeCount (p n : FVec F S4096 .f32) : FVec F S_ .f32 :=
  sitofp .f32 (Host.reduce IntOp.addi
    (extui 32 (ori (cmpf .ogt p (broadcastInDim S4096 ![] bcast_S_S4096 (constant S_ .f32 0x00000000#32)))
      (cmpf .ogt n (broadcastInDim S4096 ![] bcast_S_S4096 (constant S_ .f32 0x00000000#32)))) natLt_1_32)
    (constantI S_ 32 0#32) reducesTo_S4096_S_d0 h_S_)

/-- The sum over the rows of the two hinge terms. -/
def hingeSum (p n : FVec F S4096 .f32) : FVec F S_ .f32 :=
  Host.reduceAdd (addf p n) (constant S_ .f32 0x00000000#32) reducesTo_S4096_S_d0 h_S_

/-- The hinge sum over the active count (the sum itself when no row is active). -/
def hingeMean (p n : FVec F S4096 .f32) : FVec F S_ .f32 :=
  select (cmpf .oeq (activeCount p n) (constant S_ .f32 0x00000000#32)) (hingeSum p n)
    (Host.divf (hingeSum p n) (maximumf (activeCount p n) (constant S_ .f32 0x3F800000#32)))

/-- The margin loss of the batch `x0`, margins `x1`, labels `x2` and the two taken arrays. -/
def lossGlue (x0 : FVec F S4096x256 .f32) (x1 : FVec F S100 .f32) (x2 : IVec S4096 32)
    (xp xn : FVec F S4096x256 .f32) : FVec F S_ .f32 :=
  hingeMean (hinge (rowDist x0 xp) (betaAt x1 x2)) (hinge (betaAt x1 x2) (rowDist x0 xn))

/-- The sum of a vector of 4096 rows. -/
def entSum (v : FVec F S4096 .f32) : FVec F S_ .f32 :=
  Host.reduceAdd v (constant S_ .f32 0x00000000#32) reducesTo_S4096_S_d0 h_S_

/-- The region's `1 × 4096` output read as a vector of 4096 rows. -/
def flatK (k0 : FVec F S1x4096 .f32) : FVec F S4096 .f32 :=
  shapeCast S4096 k0 shapeCasts_S1x4096_S4096

/-- The tail's value: the margin loss at the two taken arrays, less the sum of the region's rows. -/
def tailK (x0 : FVec F S4096x256 .f32) (x1 : FVec F S100 .f32) (x2 x3 x4 : IVec S4096 32)
    (k0 : FVec F S1x4096 .f32) : FVec F S_ .f32 :=
  subf (lossGlue x0 x1 x2 (takeK x0 x3) (takeK x0 x4)) (entSum (flatK k0))

end Cert.KernelIdeal.Hand

end
-- ==== Proof.KI.Tail.lean ====
/-
  The host tail's result: run stretch by stretch, each stretch's result buffers are the named pure functions of the
  buffers the stretch reads; composed, the last buffer holds the margin loss at the two taken arrays less the sum of
  the region's rows, as a function of the arguments and the region's output at the region's exit.
-/
import proofs.«400402_j52682068853382_2_alg».proof.Proof.KI.Fold
import proofs.«400402_j52682068853382_2_alg».proof.Proof.KI.GlueDef
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo

variable {F : FTy → Type} [FloatOps F] [Facts]

/-! ## Each stretch at its result buffers, from any contents -/

section Stretch

variable (V : Valuation τ sig (Elt F))

/-- The reshape: the region's output as a vector of rows. -/
theorem after1_v1 : after hostOps1 V (Proc.devRef .tc main_v1) = flatK (V (Proc.devRef .tc main_v0)) := by
  after_results_simp <;> rfl

/-- The first row gather. -/
theorem after2_v2 : after hostOps1_1 V (Proc.devRef .tc main_v2) = takeK (V (Proc.devRef .tc main_arg0)) (V (Proc.devRef .tc main_arg3)) := by
  after_results_simp <;> rfl

/-- The second row gather. -/
theorem after3_v3 : after hostOps1_2 V (Proc.devRef .tc main_v3) = takeK (V (Proc.devRef .tc main_arg0)) (V (Proc.devRef .tc main_arg4)) := by
  after_results_simp <;> rfl

/-- The gathered margin. -/
theorem after4_v22 : after hostOps1_3 V (Proc.devRef .tc main_v22) = betaAt (V (Proc.devRef .tc main_arg1)) (V (Proc.devRef .tc main_arg2)) := by
  after_results_simp <;> rfl

/-- The distance to the second taken array. -/
theorem after4_v15 : after hostOps1_3 V (Proc.devRef .tc main_v15) = rowDist (V (Proc.devRef .tc main_arg0)) (V (Proc.devRef .tc main_v3)) := by
  after_results_simp <;> rfl

/-- The first hinge term before its clamp. -/
theorem after4_v25 : after hostOps1_3 V (Proc.devRef .tc main_v25) =
    addf (subf (rowDist (V (Proc.devRef .tc main_arg0)) (V (Proc.devRef .tc main_v2))) (betaAt (V (Proc.devRef .tc main_arg1)) (V (Proc.devRef .tc main_arg2))))
      (broadcastInDim S4096 ![] Facts₀.bcast_S_S4096 (constant S_ .f32 0x3E4CCCCD#32)) := by
  after_results_simp <;> rfl

/-- The first clamp. -/
theorem after5_v26 : after hostOps1_4 V (Proc.devRef .tc main_v26) =
    maximumf (V (Proc.devRef .tc main_v25)) (broadcastInDim S4096 ![] Facts₀.bcast_S_S4096 (constant S_ .f32 0x00000000#32)) := by
  after_results_simp <;> rfl

/-- The second hinge term before its clamp. -/
theorem after6_v29 : after hostOps1_5 V (Proc.devRef .tc main_v29) =
    addf (subf (V (Proc.devRef .tc main_v22)) (V (Proc.devRef .tc main_v15)))
      (broadcastInDim S4096 ![] Facts₀.bcast_S_S4096 (constant S_ .f32 0x3E4CCCCD#32)) := by
  after_results_simp <;> rfl

/-- The second clamp. -/
theorem after7_v30 : after hostOps1_6 V (Proc.devRef .tc main_v30) =
    maximumf (V (Proc.devRef .tc main_v29)) (broadcastInDim S4096 ![] Facts₀.bcast_S_S4096 (constant S_ .f32 0x00000000#32)) := by
  after_results_simp <;> rfl

/-- The hinge sum. -/
theorem after8_v40 : after hostOps1_7 V (Proc.devRef .tc main_v40) = hingeSum (V (Proc.devRef .tc main_v26)) (V (Proc.devRef .tc main_v30)) := by
  after_results_simp <;> rfl

/-- Whether no row is active. -/
theorem after8_v41 : after hostOps1_7 V (Proc.devRef .tc main_v41) =
    cmpf .oeq (activeCount (V (Proc.devRef .tc main_v26)) (V (Proc.devRef .tc main_v30))) (constant S_ .f32 0x00000000#32) := by
  after_results_simp <;> rfl

/-- The hinge sum over the active count. -/
theorem after8_v43 : after hostOps1_7 V (Proc.devRef .tc main_v43) =
    Host.divf (hingeSum (V (Proc.devRef .tc main_v26)) (V (Proc.devRef .tc main_v30)))
      (maximumf (activeCount (V (Proc.devRef .tc main_v26)) (V (Proc.devRef .tc main_v30))) (constant S_ .f32 0x3F800000#32)) := by
  after_results_simp <;> rfl

/-- The choice between the two. -/
theorem after9_v44 : after hostOps1_8 V (Proc.devRef .tc main_v44) =
    select (V (Proc.devRef .tc main_v41)) (V (Proc.devRef .tc main_v40)) (V (Proc.devRef .tc main_v43)) := by
  after_results_simp <;> rfl

/-- The final difference. -/
theorem after10_v46 : after hostOps1_9 V (Proc.devRef .tc main_v46) = subf (V (Proc.devRef .tc main_v44)) (entSum (V (Proc.devRef .tc main_v1))) := by
  after_results_simp <;> rfl

end Stretch

/-! ## What each stretch leaves alone -/

/-- One stretch leaves a buffer that none of its operations writes: the written buffers are the operations'
    result buffers, each a reference other than the one asked about. -/
local macro "kept_step" : tactic => `(tactic| (
  refine StableHlo.after_of_forall_not_mem _ _ (List.forall_iff_forall_mem.mp ?_)
  simp only [List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

theorem T2_v1 (W : Valuation τ sig (Elt F)) : T2 W (Proc.devRef .tc main_v1) = T1 W (Proc.devRef .tc main_v1) := by kept_step
theorem T3_v1 (W : Valuation τ sig (Elt F)) : T3 W (Proc.devRef .tc main_v1) = T2 W (Proc.devRef .tc main_v1) := by kept_step
theorem T4_v1 (W : Valuation τ sig (Elt F)) : T4 W (Proc.devRef .tc main_v1) = T3 W (Proc.devRef .tc main_v1) := by kept_step
theorem T5_v1 (W : Valuation τ sig (Elt F)) : T5 W (Proc.devRef .tc main_v1) = T4 W (Proc.devRef .tc main_v1) := by kept_step
theorem T6_v1 (W : Valuation τ sig (Elt F)) : T6 W (Proc.devRef .tc main_v1) = T5 W (Proc.devRef .tc main_v1) := by kept_step
theorem T7_v1 (W : Valuation τ sig (Elt F)) : T7 W (Proc.devRef .tc main_v1) = T6 W (Proc.devRef .tc main_v1) := by kept_step
theorem T8_v1 (W : Valuation τ sig (Elt F)) : T8 W (Proc.devRef .tc main_v1) = T7 W (Proc.devRef .tc main_v1) := by kept_step
theorem T9_v1 (W : Valuation τ sig (Elt F)) : T9 W (Proc.devRef .tc main_v1) = T8 W (Proc.devRef .tc main_v1) := by kept_step
theorem T6_v26 (W : Valuation τ sig (Elt F)) : T6 W (Proc.devRef .tc main_v26) = T5 W (Proc.devRef .tc main_v26) := by kept_step
theorem T7_v26 (W : Valuation τ sig (Elt F)) : T7 W (Proc.devRef .tc main_v26) = T6 W (Proc.devRef .tc main_v26) := by kept_step
theorem T5_v22 (W : Valuation τ sig (Elt F)) : T5 W (Proc.devRef .tc main_v22) = T4 W (Proc.devRef .tc main_v22) := by kept_step
theorem T5_v15 (W : Valuation τ sig (Elt F)) : T5 W (Proc.devRef .tc main_v15) = T4 W (Proc.devRef .tc main_v15) := by kept_step
theorem T3_v2 (W : Valuation τ sig (Elt F)) : T3 W (Proc.devRef .tc main_v2) = T2 W (Proc.devRef .tc main_v2) := by kept_step
theorem T1_arg0 (W : Valuation τ sig (Elt F)) : T1 W (Proc.devRef .tc main_arg0) = W (Proc.devRef .tc main_arg0) := by kept_step
theorem T2_arg0 (W : Valuation τ sig (Elt F)) : T2 W (Proc.devRef .tc main_arg0) = T1 W (Proc.devRef .tc main_arg0) := by kept_step
theorem T3_arg0 (W : Valuation τ sig (Elt F)) : T3 W (Proc.devRef .tc main_arg0) = T2 W (Proc.devRef .tc main_arg0) := by kept_step
theorem T1_arg1 (W : Valuation τ sig (Elt F)) : T1 W (Proc.devRef .tc main_arg1) = W (Proc.devRef .tc main_arg1) := by kept_step
theorem T2_arg1 (W : Valuation τ sig (Elt F)) : T2 W (Proc.devRef .tc main_arg1) = T1 W (Proc.devRef .tc main_arg1) := by kept_step
theorem T3_arg1 (W : Valuation τ sig (Elt F)) : T3 W (Proc.devRef .tc main_arg1) = T2 W (Proc.devRef .tc main_arg1) := by kept_step
theorem T1_arg2 (W : Valuation τ sig (Elt F)) : T1 W (Proc.devRef .tc main_arg2) = W (Proc.devRef .tc main_arg2) := by kept_step
theorem T2_arg2 (W : Valuation τ sig (Elt F)) : T2 W (Proc.devRef .tc main_arg2) = T1 W (Proc.devRef .tc main_arg2) := by kept_step
theorem T3_arg2 (W : Valuation τ sig (Elt F)) : T3 W (Proc.devRef .tc main_arg2) = T2 W (Proc.devRef .tc main_arg2) := by kept_step
theorem T1_arg3 (W : Valuation τ sig (Elt F)) : T1 W (Proc.devRef .tc main_arg3) = W (Proc.devRef .tc main_arg3) := by kept_step
theorem T1_arg4 (W : Valuation τ sig (Elt F)) : T1 W (Proc.devRef .tc main_arg4) = W (Proc.devRef .tc main_arg4) := by kept_step
theorem T2_arg4 (W : Valuation τ sig (Elt F)) : T2 W (Proc.devRef .tc main_arg4) = T1 W (Proc.devRef .tc main_arg4) := by kept_step

/-! ## The tail's value -/

/-- After the tail, the last buffer holds `tailK` of the arguments and the region's output at the region's exit. -/
theorem T10_v46 (W : Valuation τ sig (Elt F)) :
    T10 W (Proc.devRef .tc main_v46) =
      tailK (W (Proc.devRef .tc main_arg0)) (W (Proc.devRef .tc main_arg1)) (W (Proc.devRef .tc main_arg2))
        (W (Proc.devRef .tc main_arg3)) (W (Proc.devRef .tc main_arg4)) (W (Proc.devRef .tc main_v0)) := by
  have e1 : T9 W (Proc.devRef .tc main_v1) = flatK (W (Proc.devRef .tc main_v0)) := by
    rw [T9_v1, T8_v1, T7_v1, T6_v1, T5_v1, T4_v1, T3_v1, T2_v1]; exact after1_v1 W
  have e2 : T3 W (Proc.devRef .tc main_v2) = takeK (W (Proc.devRef .tc main_arg0)) (W (Proc.devRef .tc main_arg3)) := by
    rw [T3_v2]; exact (after2_v2 (T1 W)).trans (by rw [T1_arg0, T1_arg3])
  have e3 : T3 W (Proc.devRef .tc main_v3) = takeK (W (Proc.devRef .tc main_arg0)) (W (Proc.devRef .tc main_arg4)) :=
    (after3_v3 (T2 W)).trans (by rw [T2_arg0, T1_arg0, T2_arg4, T1_arg4])
  have a0 : T3 W (Proc.devRef .tc main_arg0) = W (Proc.devRef .tc main_arg0) := by rw [T3_arg0, T2_arg0, T1_arg0]
  have a1 : T3 W (Proc.devRef .tc main_arg1) = W (Proc.devRef .tc main_arg1) := by rw [T3_arg1, T2_arg1, T1_arg1]
  have a2 : T3 W (Proc.devRef .tc main_arg2) = W (Proc.devRef .tc main_arg2) := by rw [T3_arg2, T2_arg2, T1_arg2]
  have e22 : T4 W (Proc.devRef .tc main_v22) = betaAt (W (Proc.devRef .tc main_arg1)) (W (Proc.devRef .tc main_arg2)) :=
    (after4_v22 (T3 W)).trans (by rw [a1, a2])
  have e15 : T4 W (Proc.devRef .tc main_v15) = rowDist (W (Proc.devRef .tc main_arg0)) (takeK (W (Proc.devRef .tc main_arg0)) (W (Proc.devRef .tc main_arg4))) :=
    (after4_v15 (T3 W)).trans (by rw [a0, e3])
  have e26 : T7 W (Proc.devRef .tc main_v26) =
      hinge (rowDist (W (Proc.devRef .tc main_arg0)) (takeK (W (Proc.devRef .tc main_arg0)) (W (Proc.devRef .tc main_arg3))))
        (betaAt (W (Proc.devRef .tc main_arg1)) (W (Proc.devRef .tc main_arg2))) := by
    rw [T7_v26, T6_v26]
    refine (after5_v26 (T4 W)).trans ?_
    rw [show T4 W (Proc.devRef .tc main_v25) = _ from after4_v25 (T3 W), a0, a1, a2, e2]; rfl
  have e30 : T7 W (Proc.devRef .tc main_v30) =
      hinge (betaAt (W (Proc.devRef .tc main_arg1)) (W (Proc.devRef .tc main_arg2)))
        (rowDist (W (Proc.devRef .tc main_arg0)) (takeK (W (Proc.devRef .tc main_arg0)) (W (Proc.devRef .tc main_arg4)))) := by
    refine (after7_v30 (T6 W)).trans ?_
    rw [show T6 W (Proc.devRef .tc main_v29) = _ from after6_v29 (T5 W), T5_v22, T5_v15, e22, e15]; rfl
  have e44 : T9 W (Proc.devRef .tc main_v44) =
      lossGlue (W (Proc.devRef .tc main_arg0)) (W (Proc.devRef .tc main_arg1)) (W (Proc.devRef .tc main_arg2))
        (takeK (W (Proc.devRef .tc main_arg0)) (W (Proc.devRef .tc main_arg3))) (takeK (W (Proc.devRef .tc main_arg0)) (W (Proc.devRef .tc main_arg4))) := by
    refine (after9_v44 (T8 W)).trans ?_
    rw [show T8 W (Proc.devRef .tc main_v41) = _ from after8_v41 (T7 W), show T8 W (Proc.devRef .tc main_v40) = _ from after8_v40 (T7 W),
      show T8 W (Proc.devRef .tc main_v43) = _ from after8_v43 (T7 W), e26, e30]; rfl
  refine (after10_v46 (T9 W)).trans ?_
  rw [e44, e1]; rfl

end Cert.KernelIdeal.Hand

end
-- ==== Proof.Spec.lean ====
/-
  The entropy term of the loss, as mathematics over the extended reals, on a batch `x` of 4096 rows of 256 entries.

  For a row `i`: `sq x i` is the row's squared norm, `gram x i j` the inner product of rows `i` and `j`, and the
  squared distance of two rows is `max 0 (sq i + sq j - 2⟨i, j⟩)`. The kernel takes the product with 2 after the
  inner product (`d2K`), the reference doubles the left row first (`d2R`). The row's minimum runs over the other
  rows (the row itself is masked to +∞). The kernel's entry is half the logarithm of the minimum (`entK`), the
  reference's the logarithm of its square root (`entR`); `ent_eq` says they agree at every row.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev SB : Shape := ⟨2, ![4096, 256]⟩

/-- The squared norm of row `i`. -/
def sq (x : SB.Idx → EReal) (i : Fin 4096) : EReal := ∑ k : Fin 256, x (ix2 i k) * x (ix2 i k)

/-- The inner product of rows `i` and `j`. -/
def gram (x : SB.Idx → EReal) (i j : Fin 4096) : EReal := ∑ k : Fin 256, x (ix2 i k) * x (ix2 j k)

/-- The kernel's squared distance: the inner product doubled. -/
def d2K (x : SB.Idx → EReal) (i j : Fin 4096) : EReal :=
  max 0 ((sq x i + sq x j) - ((2 : ℝ) : EReal) * gram x i j)

/-- The reference's squared distance: the left row doubled before the inner product. -/
def d2R (x : SB.Idx → EReal) (i j : Fin 4096) : EReal :=
  max 0 ((sq x i + sq x j) - ∑ k : Fin 256, (((2 : ℝ) : EReal) * x (ix2 i k)) * x (ix2 j k))

/-- The minimum of a row of distances over the OTHER rows: the row's own entry reads +∞. -/
def rowMin (d : Fin 4096 → Fin 4096 → EReal) (i : Fin 4096) : EReal :=
  (Finset.univ : Finset (Fin 4096)).fold min ⊤ (fun j => if i = j then ⊤ else d i j)

/-- The kernel's entry for row `i`: half the logarithm of the least squared distance. -/
def entK (x : SB.Idx → EReal) (i : Fin 4096) : EReal :=
  ((1 / 2 : ℝ) : EReal) * Ideal.log (rowMin (d2K x) i)

/-- The reference's entry for row `i`: the logarithm of the least distance. -/
def entR (x : SB.Idx → EReal) (i : Fin 4096) : EReal :=
  Ideal.log (Ideal.sqrt (rowMin (d2R x) i))

/-! ## The literals -/

theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_inf : Ideal.ofBits .f32 0x7F800000#32 = (⊤ : EReal) := by
  simp [Ideal.ofBits, Ideal.ieee]

/-! ## The two laws -/

/-- A nonnegative real factor moves into a finite sum of extended reals. -/
theorem coe_mul_sum {ι : Type} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The two squared distances are one. -/
theorem d2K_eq_d2R (x : SB.Idx → EReal) (i j : Fin 4096) : d2K x i j = d2R x i j := by
  unfold d2K d2R gram
  rw [coe_mul_sum _ 2 (by norm_num)]
  simp only [mul_assoc]

/-- On [0, +∞] half the logarithm is the logarithm of the square root. -/
theorem half_log_eq_log_sqrt (m : EReal) (hm : 0 ≤ m) : ((1 / 2 : ℝ) : EReal) * Ideal.log m = Ideal.log (Ideal.sqrt m) := by
  induction m using EReal.rec with
  | bot => exact absurd hm (by simp)
  | top =>
    show ((1 / 2 : ℝ) : EReal) * ⊤ = ⊤
    exact EReal.coe_mul_top_of_pos (by norm_num)
  | coe r =>
    have hr : 0 ≤ r := EReal.coe_nonneg.mp hm
    have hs : Ideal.sqrt (r : EReal) = ((Real.sqrt r : ℝ) : EReal) := by
      show (if r < 0 then (⊥ : EReal) else (Real.sqrt r : EReal)) = _
      rw [if_neg (not_lt.mpr hr)]
    rw [hs]
    show ((1 / 2 : ℝ) : EReal) * (if r ≤ 0 then (⊥ : EReal) else (Real.log r : EReal))
      = (if Real.sqrt r ≤ 0 then (⊥ : EReal) else (Real.log (Real.sqrt r) : EReal))
    by_cases h0 : r ≤ 0
    · have hsq : Real.sqrt r ≤ 0 := by rw [Real.sqrt_eq_zero_of_nonpos h0]
      rw [if_pos h0, if_pos hsq]
      exact EReal.coe_mul_bot_of_pos (by norm_num)
    · have hpos : 0 < r := lt_of_not_ge h0
      have hsq : ¬ Real.sqrt r ≤ 0 := not_le.mpr (Real.sqrt_pos.mpr hpos)
      rw [if_neg h0, if_neg hsq, Real.log_sqrt hr, ← EReal.coe_mul]
      congr 1
      ring

/-- A row's minimum is not negative: every entry is a `max 0 _` or +∞. -/
theorem rowMin_nonneg (x : SB.Idx → EReal) (i : Fin 4096) : 0 ≤ rowMin (d2K x) i := by
  unfold rowMin
  rw [Finset.le_fold_min]
  refine ⟨le_top, fun j _ => ?_⟩
  by_cases h : i = j
  · rw [if_pos h]; exact le_top
  · rw [if_neg h]; exact le_max_left _ _

theorem ent_eq (x : SB.Idx → EReal) (i : Fin 4096) : entK x i = entR x i := by
  unfold entK entR
  have h : rowMin (d2R x) i = rowMin (d2K x) i := by
    unfold rowMin
    simp only [d2K_eq_d2R]
  rw [h]
  exact half_log_eq_log_sqrt _ (rowMin_nonneg x i)

end Cert.Spec

end
-- ==== Proof.SpecBlk.lean ====
/-
  One grid point's share of the entropy term: the kernel's payload for row `r` of row block `t`, as a function of the
  block's rows `x0` and of the whole batch `x1` — the same expression as `Cert.Spec.entK` with the row taken from the
  block. `entBlk_eq`: when the block is rows `512 t … 512 t + 511` of the batch it IS `entK` at row `512 t + r`.
-/
import proofs.«400402_j52682068853382_2_alg».proof.Proof.Spec

noncomputable section

open scoped BigOperators

namespace Cert.Spec

open Idealize.ShloMosaic Idealize.ShloMosaic.ValueIdx

abbrev SR : Shape := ⟨2, ![512, 256]⟩

def entBlk (t : Fin 8) (x0 : SR.Idx → EReal) (x1 : SB.Idx → EReal) (r : Fin 512) : EReal :=
  ((1 / 2 : ℝ) : EReal) * Ideal.log ((Finset.univ : Finset (Fin 4096)).fold min ⊤ (fun j =>
    if t.val * 512 + r.val = j.val then ⊤
    else max 0 (((∑ k : Fin 256, x0 (ix2 r k) * x0 (ix2 r k)) + (∑ k : Fin 256, x1 (ix2 j k) * x1 (ix2 j k)))
      - ((2 : ℝ) : EReal) * ∑ k : Fin 256, x0 (ix2 r k) * x1 (ix2 j k))))

/-- The row of the batch that row `r` of block `t` is. -/
def rowOf (t : Fin 8) (r : Fin 512) : Fin 4096 := ⟨t.val * 512 + r.val, by omega⟩

theorem entBlk_eq (t : Fin 8) (x : SB.Idx → EReal) (x0 : SR.Idx → EReal)
    (h0 : ∀ (r : Fin 512) (k : Fin 256), x0 (ix2 r k) = x (ix2 (rowOf t r) k)) (r : Fin 512) :
    entBlk t x0 x r = entK x (rowOf t r) := by
  have hfun : (fun j : Fin 4096 =>
      if t.val * 512 + r.val = j.val then (⊤ : EReal)
      else max 0 (((∑ k : Fin 256, x0 (ix2 r k) * x0 (ix2 r k)) + (∑ k : Fin 256, x (ix2 j k) * x (ix2 j k)))
        - ((2 : ℝ) : EReal) * ∑ k : Fin 256, x0 (ix2 r k) * x (ix2 j k)))
      = (fun j : Fin 4096 => if rowOf t r = j then (⊤ : EReal) else d2K x (rowOf t r) j) := by
    funext j
    have hc : (t.val * 512 + r.val = j.val) ↔ (rowOf t r = j) := by
      constructor
      · intro h; exact Fin.ext h
      · intro h; rw [← h]; rfl
    simp only [hc, h0, d2K, sq, gram]
  unfold entBlk entK rowMin
  rw [hfun]

end Cert.Spec

end
-- ==== Proof.KI.Pay.lean ====
/-
  The payload of the row-minimum distance kernel read at an index, at the ideal values.

  At grid point `t` the kernel holds the row block `x0` (512 rows of the batch) and the whole batch `x1` (4096 rows), and
  writes, for row `r` of the block, half the logarithm of the least squared distance from that row to the OTHER rows of the
  batch: the squared distance is `max 0 (|x0 r|² + |x1 j|² − 2⟨x0 r, x1 j⟩)`, the row's own column `j = 512 t + r` reads +∞, and
  the minimum is the fold of `min` from +∞ over the 4096 columns. `pay_apply` says so: the payload at `(0, r)` is
  `Cert.Spec.entBlk t x0 x1 r`.

  The facts below: a vector cast to a column reads its entry, and a column spread over the columns reads the entry of its
  row; a one-axis minimum is the fold of `min` over that axis's coordinates; a lane sum of squares is the sum over the 256
  lanes; the product with the transposed batch at `(r, j)` is the sum over the lanes of `x0 (r, k) · x1 (j, k)`; the
  diagonal test on 32-bit words is the test `512 t + r = j` on naturals, every number in it being below 4096.
-/
import proofs.«400402_j52682068853382_2_alg».proof.Proof.Gen.KernelIdeal.Skeleton
import proofs.«400402_j52682068853382_2_alg».proof.Proof.SpecBlk
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.PureOps.Reduce

set_option maxRecDepth 16384

noncomputable section

open scoped BigOperators

namespace Cert.KernelIdeal.Hand

open Cert.KernelIdeal Cert.KernelIdeal.Gen Idealize.ShloMosaic Idealize.ShloMosaic.ValueIdx

/-! ## Layout operations of a column read at an index -/

section Column
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-- A `<minimumf>` reduction over one axis, at the ideal values: the fold of `min` from the accumulator's value over that
    axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The squared norms of the rows -/

/-- Row `r` of a reduced vector with the dropped coordinate put back is the entry `(r, k)`. -/
theorem lift_rows (r : Fin 512) (k : Fin 256) : reduces_S512x256_S512.lift (ix1 r) k = ix2 r k :=
  funext fun c => match c with | ⟨0, _⟩ => Fin.ext rfl | ⟨1, _⟩ => Fin.ext rfl
theorem lift_all (j : Fin 4096) (k : Fin 256) : reduces_S4096x256_S4096.lift (ix1 j) k = ix2 j k :=
  funext fun c => match c with | ⟨0, _⟩ => Fin.ext rfl | ⟨1, _⟩ => Fin.ext rfl
theorem lift_dist (r : Fin 512) (j : Fin 4096) : reduces_S512x4096_S512.lift (ix1 r) j = ix2 r j :=
  funext fun c => match c with | ⟨0, _⟩ => Fin.ext rfl | ⟨1, _⟩ => Fin.ext rfl

/-- The lane sum of the squares of the row block at row `r`. -/
theorem sq0_apply (x0 : Vec Ideal S512x256 .f32) (r : Fin 512) :
    multiReduction (F := Ideal) .add [1] S512 (mulf x0 x0) 0x00000000#32 reduces_S512x256_S512 (.inl rfl) rfl (ix1 r)
      = ∑ k : Fin 256, x0 (ix2 r k) * x0 (ix2 r k) :=
  (Ideal.multiReduction_add_single (mulf x0 x0) 0x00000000#32 reduces_S512x256_S512 (.inl rfl) rfl (ix1 r)).trans
    (Finset.sum_congr rfl fun (k : Fin 256) _ => congrArg (fun i => x0 i * x0 i) (lift_rows r k))

/-- The lane sum of the squares of the whole batch at row `j`. -/
theorem sq1_apply (x1 : Vec Ideal S4096x256 .f32) (j : Fin 4096) :
    multiReduction (F := Ideal) .add [1] S4096 (mulf x1 x1) 0x00000000#32 reduces_S4096x256_S4096 (.inl rfl) rfl (ix1 j)
      = ∑ k : Fin 256, x1 (ix2 j k) * x1 (ix2 j k) :=
  (Ideal.multiReduction_add_single (mulf x1 x1) 0x00000000#32 reduces_S4096x256_S4096 (.inl rfl) rfl (ix1 j)).trans
    (Finset.sum_congr rfl fun (k : Fin 256) _ => congrArg (fun i => x1 i * x1 i) (lift_all j k))

/-- The row minimum: the fold of `min` from +∞ over the 4096 columns. -/
theorem min_apply (v : FVec Ideal S512x4096 .f32) (r : Fin 512) :
    multiReduction (F := Ideal) .minimumf [1] S512 v 0x7F800000#32 reduces_S512x4096_S512 (.inl rfl) rfl (ix1 r)
      = (Finset.univ : Finset (Fin 4096)).fold min (⊤ : EReal) (fun j => v (ix2 r j)) :=
  (multiReduction_minimumf_single v 0x7F800000#32 reduces_S512x4096_S512 (.inl rfl) rfl (ix1 r)).trans
    ((congrArg (fun b : EReal => (Finset.univ : Finset (Fin 4096)).fold min b (v ∘ reduces_S512x4096_S512.lift (ix1 r))) Cert.Spec.ofBits_inf).trans
      (Finset.fold_congr fun (j : Fin 4096) _ => congrArg v (lift_dist r j)))

/-! ## The product of the row block with the transposed batch -/

theorem lhs_mm_0 (i : S512x4096.Idx) (q : dot_S512x256_S256x4096_S512x4096_1_0_0_1_n_n.contr.Idx) :
    (dot_S512x256_S256x4096_S512x4096_1_0_0_1_n_n.lhsIdx i q 0).val = (i 0).val := by
  unfold DotDims.lhsIdx
  rw [dif_neg (show ¬(0 : Fin S512x256.rank) ∈ dot_S512x256_S256x4096_S512x4096_1_0_0_1_n_n.lhsBatch by decide), dif_pos (show (0 : Fin S512x256.rank) ∈ dot_S512x256_S256x4096_S512x4096_1_0_0_1_n_n.lhsNonContracting by decide)]
  rfl
theorem lhs_mm_1 (i : S512x4096.Idx) (q : dot_S512x256_S256x4096_S512x4096_1_0_0_1_n_n.contr.Idx) :
    (dot_S512x256_S256x4096_S512x4096_1_0_0_1_n_n.lhsIdx i q 1).val = (q ⟨0, by decide⟩).val :=
  dot_S512x256_S256x4096_S512x4096_1_0_0_1_n_n.lhsIdx_val_of_single rfl i q
theorem rhs_mm_0 (i : S512x4096.Idx) (q : dot_S512x256_S256x4096_S512x4096_1_0_0_1_n_n.contr.Idx) :
    (dot_S512x256_S256x4096_S512x4096_1_0_0_1_n_n.rhsIdx i q 0).val = (q ⟨0, by decide⟩).val :=
  dot_S512x256_S256x4096_S512x4096_1_0_0_1_n_n.rhsIdx_val_of_single rfl i q
theorem rhs_mm_1 (i : S512x4096.Idx) (q : dot_S512x256_S256x4096_S512x4096_1_0_0_1_n_n.contr.Idx) :
    (dot_S512x256_S256x4096_S512x4096_1_0_0_1_n_n.rhsIdx i q 1).val = (i 1).val := by
  unfold DotDims.rhsIdx
  rw [dif_neg (show ¬(1 : Fin S256x4096.rank) ∈ dot_S512x256_S256x4096_S512x4096_1_0_0_1_n_n.rhsBatch by decide), dif_pos (show (1 : Fin S256x4096.rank) ∈ dot_S512x256_S256x4096_S512x4096_1_0_0_1_n_n.rhsNonContracting by decide)]
  rfl

/-- The product at `(r, j)`: the sum over the 256 lanes of the row block's row `r` times the right operand's column `j`. -/
theorem mm_apply (y0 : FVec Ideal S512x256 .f32) (y1 : FVec Ideal S256x4096 .f32) (r : Fin 512) (j : Fin 4096) :
    matmul dot_S512x256_S256x4096_S512x4096_1_0_0_1_n_n (some .fp32) y0 y1 (constant (F := Ideal) S512x4096 .f32 0x00000000#32) (ix2 r j)
      = ∑ k : Fin 256, y0 (ix2 r k) * y1 (ix2 k j) := by
  simp only [matmul]
  rw [Ideal.matmul_constant_zero_apply, ← Equiv.sum_comp (contrEquiv1 dot_S512x256_S256x4096_S512x4096_1_0_0_1_n_n 256 rfl rfl).symm]
  refine Finset.sum_congr rfl fun k _ => ?_
  have hk := contrEquiv1_symm_val dot_S512x256_S256x4096_S512x4096_1_0_0_1_n_n 256 rfl rfl k
  have el : dot_S512x256_S256x4096_S512x4096_1_0_0_1_n_n.lhsIdx (ix2 r j) ((contrEquiv1 dot_S512x256_S256x4096_S512x4096_1_0_0_1_n_n 256 rfl rfl).symm k) = ix2 r k := funext fun a => Fin.ext (by
    match a with
    | ⟨0, _⟩ => exact lhs_mm_0 _ _
    | ⟨1, _⟩ => exact (lhs_mm_1 _ _).trans hk)
  have er : dot_S512x256_S256x4096_S512x4096_1_0_0_1_n_n.rhsIdx (ix2 r j) ((contrEquiv1 dot_S512x256_S256x4096_S512x4096_1_0_0_1_n_n 256 rfl rfl).symm k) = ix2 k j := funext fun a => Fin.ext (by
    match a with
    | ⟨0, _⟩ => exact (rhs_mm_0 _ _).trans hk
    | ⟨1, _⟩ => exact rhs_mm_1 _ _)
  rw [el, er]

/-! ## The columns and rows of norms, and the diagonal mask -/

/-- The column of row-block norms spread over the columns reads the norm of its row. -/
theorem col_apply {α : Type} (v : S512.Idx → α) (r : Fin 512) (j : Fin 4096) :
    broadcastTo S512x4096 (shapeCast S512x1 v shapeCasts_S512_S512x1) broadcasts_S512x1_S512x4096 (ix2 r j) = v (ix1 r) :=
  (broadcastTo_a1_ab_apply _ _ r j).trans (shapeCast_a_a1_apply v _ r 0)

/-- The column of batch norms, transposed to a row and spread over the rows, reads the norm of its column. -/
theorem row_apply {α : Type} (v : S4096.Idx → α) (r : Fin 512) (j : Fin 4096) :
    broadcastTo S512x4096 (transpose S1x4096 [1, 0] (shapeCast S4096x1 v shapeCasts_S4096_S4096x1) transposes_S4096x1_p1_0_S1x4096)
      broadcasts_S1x4096_S512x4096 (ix2 r j) = v (ix1 j) :=
  (broadcastTo_1b_ab_apply _ _ r j).trans ((transpose_ix2_apply _ _ (0 : Fin 1) j).trans (shapeCast_a_a1_apply v _ j 0))

/-- The diagonal test on 32-bit words is the test on the naturals: every number in it is below 4096. -/
theorem mask_iff (t : ℕ) (ht : t < 8) (r : Fin 512) (j : Fin 4096) :
    IntOp.cmpi .eq (IntOp.addi (Scalar.muli (BitVec.ofNat 32 t) 512#32) (BitVec.ofNat 32 r.val)) (BitVec.ofNat 32 j.val) = 1#1
      ↔ t * 512 + r.val = j.val := by
  unfold IntOp.cmpi IntOp.addi Scalar.muli IntOp.muli
  have e : BitVec.ofNat 32 t * 512#32 + BitVec.ofNat 32 r.val = BitVec.ofNat 32 (t * 512 + r.val) := by
    apply BitVec.eq_of_toNat_eq
    simp only [BitVec.toNat_add, BitVec.toNat_mul, BitVec.toNat_ofNat]
    have := r.isLt
    omega
  rw [e]
  by_cases hEq : t * 512 + r.val = j.val
  · rw [hEq]; simp
  · have hne : BitVec.ofNat 32 (t * 512 + r.val) ≠ BitVec.ofNat 32 j.val := fun h => hEq (by
      have h2 := congrArg BitVec.toNat h
      simp only [BitVec.toNat_ofNat] at h2
      have := r.isLt; have := j.isLt
      omega)
    rw [beq_eq_false_iff_ne.mpr hne]
    simp only [hEq, iff_false]
    decide

/-! ## The payload's named parts

The payload is one term; its parts are named here so that each is read at an index on its own: the two vectors of
squared norms, the product of the row block with the transposed batch, the sum of norms spread over the square, the
clamped squared distance, the diagonal mask, the masked distance and the row minimum. -/

/-- The squared norms of the row block's rows. -/
def sqRows (x0 : Vec Ideal S512x256 .f32) : FVec Ideal S512 .f32 :=
  multiReduction .add [1] S512 (mulf x0 x0) 0x00000000#32 reduces_S512x256_S512 (.inl rfl) rfl

/-- The squared norms of the batch's rows. -/
def sqAll (x1 : Vec Ideal S4096x256 .f32) : FVec Ideal S4096 .f32 :=
  multiReduction .add [1] S4096 (mulf x1 x1) 0x00000000#32 reduces_S4096x256_S4096 (.inl rfl) rfl

/-- The inner products of the row block's rows with the batch's rows. -/
def gramK (x0 : Vec Ideal S512x256 .f32) (x1 : Vec Ideal S4096x256 .f32) : FVec Ideal S512x4096 .f32 :=
  matmul (φ₁ := .f32) (φ₂ := .f32) dot_S512x256_S256x4096_S512x4096_1_0_0_1_n_n (some .fp32) x0
    (transpose S256x4096 [1, 0] x1 transposes_S4096x256_p1_0_S256x4096) (constant S512x4096 .f32 0x00000000#32)

/-- The sum of the two squared norms at every pair of rows. -/
def normSum (x0 : Vec Ideal S512x256 .f32) (x1 : Vec Ideal S4096x256 .f32) : FVec Ideal S512x4096 .f32 :=
  addf (broadcastTo S512x4096 (shapeCast S512x1 (sqRows x0) shapeCasts_S512_S512x1) broadcasts_S512x1_S512x4096)
    (broadcastTo S512x4096
      (transpose S1x4096 [1, 0] (shapeCast S4096x1 (sqAll x1) shapeCasts_S4096_S4096x1) transposes_S4096x1_p1_0_S1x4096)
      broadcasts_S1x4096_S512x4096)

/-- The squared distance of every pair of rows, clamped at zero. -/
def dist (x0 : Vec Ideal S512x256 .f32) (x1 : Vec Ideal S4096x256 .f32) : FVec Ideal S512x4096 .f32 :=
  maximumf (broadcast S512x4096 (Scalar.ofBits .f32 0x00000000#32))
    (subf (normSum x0 x1) (mulf (broadcast S512x4096 (Scalar.ofBits .f32 0x40000000#32)) (gramK x0 x1)))

/-- The diagonal mask of grid point `i`: row `r` of the block is row `512 i + r` of the batch. -/
def maskW (i : grid0.Coords) : IVec S512x4096 1 :=
  cmpi .eq
    (broadcastTo S512x4096 (addi (broadcast S512x1 (Scalar.muli (BitVec.ofNat 32 (i 0).val) 512#32))
      (iota .tc S512x1 32 [0] iota_S512x1_d0_w32)) broadcasts_S512x1_S512x4096)
    (broadcastTo S512x4096 (iota .tc S1x4096 32 [1] iota_S1x4096_d1_w32) broadcasts_S1x4096_S512x4096)

/-- The distances with the row's own entry replaced by +∞. -/
def masked (i : grid0.Coords) (x0 : Vec Ideal S512x256 .f32) (x1 : Vec Ideal S4096x256 .f32) : FVec Ideal S512x4096 .f32 :=
  select (maskW i) (broadcast S512x4096 (Scalar.ofBits .f32 0x7F800000#32)) (dist x0 x1)

/-- The least masked distance of every row of the block. -/
def rowMinK (i : grid0.Coords) (x0 : Vec Ideal S512x256 .f32) (x1 : Vec Ideal S4096x256 .f32) : FVec Ideal S512 .f32 :=
  multiReduction .minimumf [1] S512 (masked i x0 x1) 0x7F800000#32 reduces_S512x4096_S512 (.inl rfl) rfl

/-- The payload is half the logarithm of the row minima, as a row. -/
theorem pay_eq (i : grid0.Coords) (x0 : Vec Ideal S512x256 .f32) (x1 : Vec Ideal S4096x256 .f32) :
    k0_pay1 (F := Ideal) i x0 x1
      = transpose S1x512 [1, 0]
          (mulf (broadcast S512x1 (Scalar.ofBits .f32 0x3F000000#32))
            (log (shapeCast S512x1 (rowMinK i x0 x1) shapeCasts_S512_S512x1))) transposes_S512x1_p1_0_S1x512 := rfl

/-! ## The parts read at an index -/

/-- A logarithm of a vector at an index is the logarithm of the entry. -/
theorem log_apply {s : Shape} {φ : FTy} (v : FVec Ideal s φ) (i : s.Idx) : log v i = Ideal.log (v i) := rfl

theorem gramK_apply (x0 : Vec Ideal S512x256 .f32) (x1 : Vec Ideal S4096x256 .f32) (r : Fin 512) (j : Fin 4096) :
    gramK x0 x1 (ix2 r j) = ∑ k : Fin 256, x0 (ix2 r k) * x1 (ix2 j k) := by
  unfold gramK
  exact (mm_apply x0 _ r j).trans (Finset.sum_congr rfl fun (k : Fin 256) _ =>
    congrArg (fun b : EReal => x0 (ix2 r k) * b) (transpose_ix2_apply x1 _ k j))

theorem normSum_apply (x0 : Vec Ideal S512x256 .f32) (x1 : Vec Ideal S4096x256 .f32) (r : Fin 512) (j : Fin 4096) :
    normSum x0 x1 (ix2 r j)
      = (∑ k : Fin 256, x0 (ix2 r k) * x0 (ix2 r k)) + (∑ k : Fin 256, x1 (ix2 j k) * x1 (ix2 j k)) := by
  unfold normSum sqRows sqAll
  rw [addf_apply]
  exact congrArg₂ (fun a b : EReal => a + b) ((col_apply _ r j).trans (sq0_apply x0 r)) ((row_apply _ r j).trans (sq1_apply x1 j))

theorem dist_apply (x0 : Vec Ideal S512x256 .f32) (x1 : Vec Ideal S4096x256 .f32) (r : Fin 512) (j : Fin 4096) :
    dist x0 x1 (ix2 r j)
      = max 0 (((∑ k : Fin 256, x0 (ix2 r k) * x0 (ix2 r k)) + (∑ k : Fin 256, x1 (ix2 j k) * x1 (ix2 j k)))
          - ((2 : ℝ) : EReal) * ∑ k : Fin 256, x0 (ix2 r k) * x1 (ix2 j k)) := by
  unfold dist
  rw [maximumf_apply, broadcast_apply, subf_apply, mulf_apply, broadcast_apply, normSum_apply, gramK_apply]
  rw [Ideal.ofBits_def, Ideal.ofBits_zero_f32, Ideal.ofBits_def, Cert.Spec.ofBits_two]

theorem maskW_apply (i : grid0.Coords) (r : Fin 512) (j : Fin 4096) :
    maskW i (ix2 r j) = 1#1 ↔ (i 0).val * 512 + r.val = j.val := by
  have e1 : broadcastTo S512x4096 (addi (broadcast S512x1 (Scalar.muli (BitVec.ofNat 32 (i 0).val) 512#32))
      (iota .tc S512x1 32 [0] iota_S512x1_d0_w32)) broadcasts_S512x1_S512x4096 (ix2 r j)
      = IntOp.addi (Scalar.muli (BitVec.ofNat 32 (i 0).val) 512#32) (BitVec.ofNat 32 r.val) :=
    (broadcastTo_a1_ab_apply _ _ r j).trans
      (congrArg (IntOp.addi (Scalar.muli (BitVec.ofNat 32 (i 0).val) 512#32))
        (iota_single_apply .tc S512x1 32 0 iota_S512x1_d0_w32 (ix2 r (0 : Fin 1))))
  have e2 : broadcastTo S512x4096 (iota .tc S1x4096 32 [1] iota_S1x4096_d1_w32) broadcasts_S1x4096_S512x4096 (ix2 r j)
      = BitVec.ofNat 32 j.val :=
    (broadcastTo_1b_ab_apply _ _ r j).trans (iota_single_apply .tc S1x4096 32 1 iota_S1x4096_d1_w32 (ix2 (0 : Fin 1) j))
  unfold maskW
  show IntOp.cmpi .eq _ _ = 1#1 ↔ _
  rw [e1, e2]
  exact mask_iff (i 0).val (i 0).isLt r j

theorem masked_apply (i : grid0.Coords) (x0 : Vec Ideal S512x256 .f32) (x1 : Vec Ideal S4096x256 .f32) (r : Fin 512) (j : Fin 4096) :
    masked i x0 x1 (ix2 r j)
      = if (i 0).val * 512 + r.val = j.val then ⊤
        else max 0 (((∑ k : Fin 256, x0 (ix2 r k) * x0 (ix2 r k)) + (∑ k : Fin 256, x1 (ix2 j k) * x1 (ix2 j k)))
          - ((2 : ℝ) : EReal) * ∑ k : Fin 256, x0 (ix2 r k) * x1 (ix2 j k)) := by
  unfold masked
  rw [select_apply, broadcast_apply, dist_apply]
  unfold Scalar.select
  exact if_congr (maskW_apply i r j) ((Ideal.ofBits_def _).trans Cert.Spec.ofBits_inf) rfl

theorem rowMinK_apply (i : grid0.Coords) (x0 : Vec Ideal S512x256 .f32) (x1 : Vec Ideal S4096x256 .f32) (r : Fin 512) :
    rowMinK i x0 x1 (ix1 r)
      = (Finset.univ : Finset (Fin 4096)).fold min ⊤ (fun j =>
          if (i 0).val * 512 + r.val = j.val then ⊤
          else max 0 (((∑ k : Fin 256, x0 (ix2 r k) * x0 (ix2 r k)) + (∑ k : Fin 256, x1 (ix2 j k) * x1 (ix2 j k)))
            - ((2 : ℝ) : EReal) * ∑ k : Fin 256, x0 (ix2 r k) * x1 (ix2 j k))) := by
  unfold rowMinK
  exact (min_apply _ r).trans (Finset.fold_congr fun (j : Fin 4096) _ => masked_apply i x0 x1 r j)

/-! ## The payload at an index -/

/-- The kernel's payload at result `r` of grid point `i`: half the logarithm of the least masked squared distance from
    row `r` of the row block to the rows of the batch. -/
theorem pay_at (i : grid0.Coords) (x0 : Vec Ideal S512x256 .f32) (x1 : Vec Ideal S4096x256 .f32) (r : Fin 512) :
    k0_pay1 (F := Ideal) i x0 x1 (ix2 (0 : Fin 1) r)
      = ((1 / 2 : ℝ) : EReal) * Ideal.log ((Finset.univ : Finset (Fin 4096)).fold min ⊤ (fun j =>
          if (i 0).val * 512 + r.val = j.val then ⊤
          else max 0 (((∑ k : Fin 256, x0 (ix2 r k) * x0 (ix2 r k)) + (∑ k : Fin 256, x1 (ix2 j k) * x1 (ix2 j k)))
            - ((2 : ℝ) : EReal) * ∑ k : Fin 256, x0 (ix2 r k) * x1 (ix2 j k)))) := by
  refine (congrFun (pay_eq i x0 x1) (ix2 (0 : Fin 1) r)).trans ?_
  refine (transpose_ix2_apply _ _ (0 : Fin 1) r).trans ?_
  rw [mulf_apply, broadcast_apply, log_apply, Ideal.ofBits_def, Cert.Spec.ofBits_half]
  exact congrArg (fun m : EReal => ((1 / 2 : ℝ) : EReal) * Ideal.log m)
    ((shapeCast_a_a1_apply _ _ r (0 : Fin 1)).trans (rowMinK_apply i x0 x1 r))

/-- The grid has eight points, and point `t`'s one coordinate is `t`. -/
theorem grid_N : grid0.N = 8 := by decide

theorem coords_val (t : Fin cfg0.N) : (grid0.coords t 0).val = t.val := by
  have ht : t.val < 8 := lt_of_lt_of_eq t.isLt grid_N
  have hs : grid0.stride 0 = 1 := by decide
  show t.val / grid0.stride 0 % 8 = t.val
  rw [hs, Nat.div_one]
  exact Nat.mod_eq_of_lt ht

/-- The payload of grid point `t` at result `r` is the block's share of the entropy term. -/
theorem pay_apply (t : Fin cfg0.N) (x0 : Vec Ideal S512x256 .f32) (x1 : Vec Ideal S4096x256 .f32) (r : Fin 512) :
    k0_pay1 (F := Ideal) (grid0.coords t) x0 x1 (ix2 (0 : Fin 1) r)
      = Cert.Spec.entBlk ⟨t.val, lt_of_lt_of_eq t.isLt grid_N⟩ x0 x1 r := by
  rw [pay_at, coords_val]
  rfl

end Cert.KernelIdeal.Hand

end
-- ==== Proof.KI.Value.lean ====
/-
  What the kernel region leaves in its result array, as one function of the batch array at the region's entry.

  The grid has 8 points; point t stages rows 512 t … 512 t + 511 of the batch (window 0), the whole batch (window 1),
  and writes back columns 512 t … 512 t + 511 of the [1, 4096] result array (window 2). The body's one store leaves
  its payload in the result buffer; the payload at column r, on a row block that is rows 512 t … of the batch x and on
  x whole, is the entropy term of row 512 t + r of x: half the logarithm of the least squared distance to another
  row. Every column of the result array lies in exactly the block of the point i / 512, so the array ends holding, at
  (0, i), the entropy term of row i.
-/
import proofs.«400402_j52682068853382_2_alg».proof.Proof.KI.Body
import proofs.«400402_j52682068853382_2_alg».proof.Proof.KI.Pay
import proofs.«400402_j52682068853382_2_alg».proof.Proof.SpecBlk
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The result buffer after the body is the payload -/

theorem zero_offsets : (![0, 0] : Fin 2 → Nat) = fun _ => 0 := funext fun a => by fin_cases a <;> rfl

/-- The body loads both input buffers whole and stores once over the whole result buffer: what the store leaves is
    the payload of the two buffers' contents. -/
theorem outRow_eq {F : FTy → Type} [FloatOps F] (i : grid0.Coords) (x0 : Vec F S512x256 .f32) (x1 : Vec F S4096x256 .f32) :
    outRow i x0 x1 = k0_pay1 i x0 x1 := by
  unfold outRow
  rw [View.canon_unit_zero zero_offsets]
  simp only [View.ld_unit_zero (S := S512x256) zero_offsets, View.ld_unit_zero (S := S4096x256) zero_offsets]

/-! ## The windows' blocks in the arrays -/

-- the TensorCore's buffer contents when the region is entered
variable (V : (c : Dev nD) → (b : Ref sig .tc) → Buf (Elt Ideal) ((c : Thread nD τ).loc b))

/-- A grid point as the number of its row block. -/
abbrev blkOf (t : Fin cfg0.N) : Fin 8 := ⟨t.val, lt_of_lt_of_eq t.isLt N_0⟩

/-- The three index maps at point t: (t, 0) for the row block, (0, 0) for the whole batch, (0, t) for the result. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- Window 0's block at point t is rows 512 t … 512 t + 511 of the batch: entry (r, k) of the block is entry
    (512 t + r, k) of the array. -/
theorem rows_apply (c : Dev nD) (t : Fin cfg0.N) (r : Fin 512) (k : Fin 256) :
    (iblk V c 0 t : Vec Ideal S512x256 .f32) (ix2 r k)
      = (V c main_arg0 : S4096x256.Idx → EReal) (ix2 (Cert.Spec.rowOf (blkOf t) r) k) := by
  obtain ⟨e0, e1, -⟩ := index_facts t
  unfold iblk
  rw [View.read_apply]
  show V c main_arg0 _ = V c main_arg0 _
  congr 1
  funext a
  apply Fin.ext
  match a with
  | ⟨0, _⟩ => show win0_0.index t 0 * 512 + 1 * (r : Nat) = t.val * 512 + r.val; rw [e0]; omega
  | ⟨1, _⟩ => show win0_0.index t 1 * 256 + 1 * (k : Nat) = k.val; rw [e1]; omega

/-- Window 1's block is the whole batch at every point: its block is the array and its index is (0, 0). -/
theorem all_eq (c : Dev nD) (t : Fin cfg0.N) : iblk V c 1 t = V c main_arg0 := by
  obtain ⟨-, -, e0, e1, -⟩ := index_facts t
  have hz : (fun a => (win0_1.index t) a * main_arg0.ty.shape.size a) = fun _ => 0 := funext fun a => by
    match a with
    | ⟨0, _⟩ => show win0_1.index t 0 * 4096 = 0; rw [e0]
    | ⟨1, _⟩ => show win0_1.index t 1 * 256 = 0; rw [e1]
  exact Memref.read_access_unit_zero (Elt Ideal) main_arg0 hz _ _

/-- Column r of point t's result block is column 512 t + r of the result array. -/
theorem col_eq (t : Fin cfg0.N) (r : Fin 512) :
    Cert.Spec.rowOf (blkOf t) r = (((cfg0.win 2).blk t).view.emb (ix2 (0 : Fin 1) r)) 1 := by
  obtain ⟨-, -, -, -, -, e1⟩ := index_facts t
  apply Fin.ext
  show t.val * 512 + r.val = win0_2.index t 1 * 512 + 1 * r.val
  rw [e1]; omega

/-! ## What each point writes back -/

/-- The result array the region leaves: entry (0, i) is the entropy term of row i of the batch at the region's entry. -/
abbrev entRow (c : Dev nD) : S1x4096.Idx → EReal := fun y => Cert.Spec.entK (V c main_arg0) (y 1)

/-- The payload at point t, on a row block x0 that is rows 512 t … 512 t + 511 of the batch x and on x whole: at
    column r the entropy term of row 512 t + r of x (the block's row r is that row, so the block's share of the
    entropy term is the whole term). -/
theorem pay_rows (t : Fin cfg0.N) (x : Vec Ideal S4096x256 .f32) (x0 : Vec Ideal S512x256 .f32)
    (h0 : ∀ (r : Fin 512) (k : Fin 256), x0 (ix2 r k) = x (ix2 (Cert.Spec.rowOf (blkOf t) r) k)) (r : Fin 512) :
    k0_pay1 (F := Ideal) (grid0.coords t) x0 x (ix2 (0 : Fin 1) r) = Cert.Spec.entK x (Cert.Spec.rowOf (blkOf t) r) :=
  (pay_apply t x0 x r).trans (Cert.Spec.entBlk_eq (blkOf t) x x0 h0 r)

/-- What point t leaves in the result buffer, at an index of the block, is the result array's entry there: the
    entropy term of the batch's row 512 t + r at column r. -/
theorem flushed_apply (c : Dev nD) (t : Fin cfg0.N) (j : S1x512.Idx) :
    (cfg0.win 2).cut (grid0.coords t) (outRow (grid0.coords t) (iblk V c 0 t) (iblk V c 1 t)) j
      = entRow V c (((cfg0.win 2).blk t).view.emb j) := by
  obtain ⟨p, r, rfl⟩ : ∃ (p : Fin 1) (r : Fin 512), j = ix2 p r := ⟨j 0, j 1, eq_ix2 j⟩
  obtain rfl : p = 0 := Subsingleton.elim _ _
  show outRow (grid0.coords t) (iblk V c 0 t) (iblk V c 1 t) (ix2 (0 : Fin 1) r) = _
  rw [all_eq V c t]
  refine (congrFun (outRow_eq (grid0.coords t) (iblk V c 0 t) (V c main_arg0)) (ix2 (0 : Fin 1) r)).trans ?_
  refine (pay_rows t (V c main_arg0) (iblk V c 0 t) (rows_apply V c t) r).trans ?_
  exact congrArg (Cert.Spec.entK (V c main_arg0)) (col_eq t r)

/-- What point t writes back is block t of the result array's final contents. -/
theorem flushed_eq (c : Dev nD) (t : Fin cfg0.N) :
    (dat0 (F := Ideal) V c).flushed 2 t = ((cfg0.win 2).blk t).view.read (Elt Ideal) (entRow V c) := by
  show (cfg0.win 2).cut (grid0.coords t) ((dat0 (F := Ideal) V c).after 2 t) = _
  rw [after_2]
  funext j
  exact flushed_apply V c t j

/-! ## The blocks tile the result array -/

/-- An index of the result array is in point t's block iff each coordinate is in the block's range on its axis. -/
theorem mem_blk (t : Fin cfg0.N) (i : S1x4096.Idx) :
    i ∈ ((cfg0.win 2).blk t).view.set ↔ ∀ a : Fin 2, win0_2.index t a * S1x512.size a ≤ (i a).val ∧ (i a).val < win0_2.index t a * S1x512.size a + S1x512.size a := by
  show i ∈ ((View.whole main_v0).slice (win0_2.rect t)).set ↔ _
  rw [View.set_slice_whole, Rect.mem_set_unit]
  exact Iff.rfl

/-- Column i of the result array is in the block of point i / 512, which is written back. -/
theorem cover (i : S1x4096.Idx) : ∃ t : Fin cfg0.N, (cfg0.win 2).flush t = true ∧ i ∈ ((cfg0.win 2).blk t).view.set := by
  have hi0 : (i 0).val < 1 := (i 0).isLt
  have hi1 : (i 1).val < 4096 := (i 1).isLt
  let t : Fin cfg0.N := ⟨(i 1).val / 512, by rw [show cfg0.N = 8 from N_0]; omega⟩
  obtain ⟨-, -, -, -, e0, e1⟩ := index_facts t
  have e1' : win0_2.index t 1 = (i 1).val / 512 := e1
  refine ⟨t, flush0_2 t, ?_⟩
  rw [mem_blk]
  intro a
  match a with
  | ⟨0, _⟩ => show win0_2.index t 0 * 1 ≤ (i 0).val ∧ (i 0).val < win0_2.index t 0 * 1 + 1; rw [e0]; omega
  | ⟨1, _⟩ => show win0_2.index t 1 * 512 ≤ (i 1).val ∧ (i 1).val < win0_2.index t 1 * 512 + 512; rw [e1']; omega

/-! ## The result array after the region -/

/-- Every point writes back its block of one whole-array function and the blocks cover the array: the array ends
    holding that function. -/
theorem out_array (c : Dev nD) : (dat0 (F := Ideal) V c).arrAt 2 cfg0.N = entRow V c :=
  (dat0 (F := Ideal) V c).arrAt_eq_of_cover 2 (entRow V c) (fun t _ => flushed_eq V c t) cover

/-- The result array's entry (0, i) after the region is the entropy term of row i of the batch at the region's entry. -/
theorem out_value (c : Dev nD) (i : Fin 4096) :
    (dat0 (F := Ideal) V c).arrAt 2 cfg0.N (ix2 (0 : Fin 1) i) = Cert.Spec.entK (V c main_arg0) i :=
  congrFun (out_array V c) (ix2 (0 : Fin 1) i)

end Cert.KernelIdeal.Hand

end
-- ==== Proof.Decode.lean ====
/-
  The precondition read at an index, and the index wrap as a law of 32-bit words.

  The precondition is a conjunction of four `all`s; its last two say that every word of the two index vectors lies
  in [-4096, 4096) read signed. A conjunction of one-bit words is 1 exactly when both are; an `all` that is 1 had a 1
  at every index; a signed comparison that is 1 orders the signed readings of its words.

  A word v in that range is wrapped to `if v < 0 then v + 4096 else v`; the sum does not leave the signed range of
  32 bits, so the wrapped word reads in [0, 4096): it passes the bounds check `0 ≤ j ∧ j ≤ 4095`, and clamping
  its reading to [0, 4095] leaves it as it is.
-/
import proofs.«400402_j52682068853382_2_alg».proof.Pre_finite_inputs
import Idealize.ShloMosaic.Lib.ReduceAll
import Idealize.ShloMosaic.Lib.ValueIdx

noncomputable section

namespace Cert.Decode

open Idealize.ShloMosaic Idealize.ShloMosaic.ValueIdx

/-- The shape of a scalar has one index. -/
instance : Subsingleton Cert.Pre_finite_inputs.S_.Idx := ⟨fun a b => funext fun d => d.elim0⟩

/-- The two bounds, as words, read signed. -/
theorem toInt_lo : (4294963200#32 : BitVec 32).toInt = -4096 := by decide
theorem toInt_hi : (4096#32 : BitVec 32).toInt = 4096 := by decide

/-- One `all(-4096 ≤ a < 4096)` that is 1, read at an index. -/
theorem range_of_all [Cert.Pre_finite_inputs.Facts] (a : IVec Cert.Pre_finite_inputs.S4096 32)
    (hb : Cert.Pre_finite_inputs.S_.BroadcastsInDim Cert.Pre_finite_inputs.S4096 (![] : Fin 0 → Fin Cert.Pre_finite_inputs.S4096.rank))
    (hr : Cert.Pre_finite_inputs.S4096.ReducesTo [0] Cert.Pre_finite_inputs.S_) (hu : 0 < Cert.Pre_finite_inputs.S_.numel)
    (h : Host.reduce IntOp.andi
          (andi
            (cmpi CmpIPredicate.sge a
              (broadcastInDim Cert.Pre_finite_inputs.S4096 ![] hb (constantI Cert.Pre_finite_inputs.S_ 32 4294963200#32)))
            (cmpi CmpIPredicate.slt a
              (broadcastInDim Cert.Pre_finite_inputs.S4096 ![] hb (constantI Cert.Pre_finite_inputs.S_ 32 4096#32))))
          (constantI Cert.Pre_finite_inputs.S_ 1 1#1) hr hu ix0 = 1#1) (e : Fin 4096) :
    (-4096 : ℤ) ≤ (a (ix1 e)).toInt ∧ (a (ix1 e)).toInt < 4096 := by
  have he := Host.reduce_andi_all _ _ hr hu ix0 h (ix1 e)
  obtain ⟨hge, hlt⟩ := IntOp.andi_eq_one.1 he
  have hge' : (4294963200#32 : BitVec 32).toInt ≤ (a (ix1 e)).toInt := IntOp.cmpi_sge.1 hge
  have hlt' : (a (ix1 e)).toInt < (4096#32 : BitVec 32).toInt := IntOp.cmpi_slt.1 hlt
  rw [toInt_lo] at hge'
  rw [toInt_hi] at hlt'
  exact ⟨hge', hlt'⟩

/-- The precondition's two index facts: every word of either index vector reads in [-4096, 4096). -/
theorem idx_range [Cert.Pre_finite_inputs.Facts] {F : FTy → Type} [FloatOps F] (a0 : FVec F Cert.Pre_finite_inputs.S4096x256 .f32) (a1 : FVec F Cert.Pre_finite_inputs.S100 .f32) (a2 a3 a4 : IVec Cert.Pre_finite_inputs.S4096 32)
    (h : Cert.Pre_finite_inputs.fn (F := F) a0 a1 a2 a3 a4 = fun _ => 1#1) :
    (∀ e : Fin 4096, (-4096 : ℤ) ≤ (a3 (ix1 e)).toInt ∧ (a3 (ix1 e)).toInt < 4096) ∧ (∀ e : Fin 4096, (-4096 : ℤ) ≤ (a4 (ix1 e)).toInt ∧ (a4 (ix1 e)).toInt < 4096) := by
  have h0 := congrFun h ValueIdx.ix0
  dsimp only [Cert.Pre_finite_inputs.fn, Cert.Pre_finite_inputs.fn_part1] at h0
  obtain ⟨h01, h4⟩ := IntOp.andi_eq_one.1 h0
  obtain ⟨_, h3⟩ := IntOp.andi_eq_one.1 h01
  exact ⟨fun e => range_of_all a3 _ _ _ h3 e, fun e => range_of_all a4 _ _ _ h4 e⟩

/-! ## The wrap, on words -/

/-- The wrap of an index word: 4096 is added to a negative one. -/
def wrap (v : BitVec 32) : BitVec 32 := Scalar.select (IntOp.cmpi .slt v 0#32) (IntOp.addi v 4096#32) v

/-- The wrap as a conditional on the word's sign. -/
theorem wrap_eq (v : BitVec 32) : wrap v = if v.slt 0#32 then v + 4096#32 else v := by
  unfold wrap Scalar.select IntOp.cmpi IntOp.addi
  cases hs : v.slt 0#32 <;> simp

/-- The wrapped word's signed reading: 4096 more below zero, the same from zero up. -/
theorem wrap_toInt (v : BitVec 32) (h : (-4096 : ℤ) ≤ v.toInt ∧ v.toInt < 4096) :
    (wrap v).toInt = if v.toInt < 0 then v.toInt + 4096 else v.toInt := by
  rw [wrap_eq]
  have h0 : (0#32 : BitVec 32).toInt = 0 := by decide
  by_cases hn : v.toInt < 0
  · have hs : v.slt 0#32 = true := by rw [BitVec.slt_iff_toInt_lt, h0]; exact hn
    rw [hs, if_pos rfl, if_pos hn, BitVec.toInt_add, toInt_hi]
    have h1 := h.1
    rw [Int.bmod_def]
    split <;> omega
  · have hs : v.slt 0#32 = false := by
      rw [← Bool.not_eq_true, BitVec.slt_iff_toInt_lt, h0]; exact hn
    rw [hs, if_neg (by simp), if_neg hn]

/-- The wrapped word reads in [0, 4096). -/
theorem wrap_range (v : BitVec 32) (h : (-4096 : ℤ) ≤ v.toInt ∧ v.toInt < 4096) :
    0 ≤ (wrap v).toInt ∧ (wrap v).toInt < 4096 := by
  rw [wrap_toInt v h]
  obtain ⟨h1, h2⟩ := h
  split <;> omega

/-- The wrapped word passes the lower bounds check. -/
theorem wrap_sge (v : BitVec 32) (h : (-4096 : ℤ) ≤ v.toInt ∧ v.toInt < 4096) :
    IntOp.cmpi .sge (wrap v) 0#32 = 1#1 := by
  rw [IntOp.cmpi_sge]
  have h0 : (0#32 : BitVec 32).toInt = 0 := by decide
  rw [h0]; exact (wrap_range v h).1

/-- The wrapped word passes the upper bounds check. -/
theorem wrap_sle (v : BitVec 32) (h : (-4096 : ℤ) ≤ v.toInt ∧ v.toInt < 4096) :
    IntOp.cmpi .sle (wrap v) 4095#32 = 1#1 := by
  rw [IntOp.cmpi_sle]
  have h0 : (4095#32 : BitVec 32).toInt = 4095 := by decide
  rw [h0]; have := (wrap_range v h).2; omega

/-- Both checks together. -/
theorem wrap_inb (v : BitVec 32) (h : (-4096 : ℤ) ≤ v.toInt ∧ v.toInt < 4096) :
    IntOp.andi (IntOp.cmpi .sge (wrap v) 0#32) (IntOp.cmpi .sle (wrap v) 4095#32) = 1#1 :=
  IntOp.andi_eq_one.2 ⟨wrap_sge v h, wrap_sle v h⟩

/-- Clamping the wrapped word's reading to [0, 4095] leaves it: it names a row. -/
theorem wrap_clamp (v : BitVec 32) (h : (-4096 : ℤ) ≤ v.toInt ∧ v.toInt < 4096) :
    min (wrap v).toInt.toNat (4096 - 1) = (wrap v).toInt.toNat ∧ (wrap v).toInt.toNat < 4096 := by
  obtain ⟨h1, h2⟩ := wrap_range v h
  omega

/-! ## The wrap, on the index vectors -/

/-- The vector form the programs spell, at an index: compare with the zero vector, add the 4096 vector, select. -/
theorem select_wrap_apply {s : Shape} (v z k : IVec s 32) (i : s.Idx) (hz : z i = 0#32) (hk : k i = 4096#32) :
    select (cmpi .slt v z) (addi v k) v i = wrap (v i) := by
  show Scalar.select (IntOp.cmpi .slt (v i) (z i)) (IntOp.addi (v i) (k i)) (v i) = _
  rw [hz, hk]; rfl

end Cert.Decode

end
-- ==== Proof.KI.Take.lean ====
/-
  The two spellings of a row gather agree when every index word reads in [-4096, 4096).

  Both gather the rows of the batch at the wrapped indices; the kernel's spelling also masks each row by "the wrapped
  index lies in [0, 4095]" and fills a masked-out row with NaN. Under the range hypothesis the wrapped index of every
  row reads in [0, 4096), so both comparisons are 1 at every row, their conjunction reduced over the one-element axis
  is 1, the mask is 1 everywhere and the select picks the gathered row.
-/
import proofs.«400402_j52682068853382_2_alg».proof.Proof.KI.GlueDef
import proofs.«400402_j52682068853382_2_alg».proof.Proof.Decode
import Idealize.ShloMosaic.PureOps.Reduce
import Idealize.ShloMosaic.Lib.Pipeline.Value
import Idealize.ShloMosaic.Lib.ValueIdx

noncomputable section

namespace Cert.KernelIdeal.Hand

open Idealize.ShloMosaic Idealize.ShloMosaic.ValueIdx
open Cert.KernelIdeal Facts₀ Facts

variable {F : FTy → Type} [FloatOps F] [Facts]

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- The wrapped index column at row `a`: the wrap of the row's index word. -/
theorem wrapIdx_apply (idx : IVec S4096 32) (a : Fin 4096) (b : Fin 1) :
    wrapIdx idx (ix2 a b) = Cert.Decode.wrap (idx (ix1 a)) := by
  unfold wrapIdx
  refine (broadcastInDim_apply _ _ _ (ix2 a b) (ix1 a) (fun d => match d with | ⟨0, _⟩ => rfl)).trans ?_
  exact Cert.Decode.select_wrap_apply idx _ _ (ix1 a) rfl rfl

/-- Under the range hypothesis the in-range mask is 1 at every row. -/
theorem inRange_wrapIdx (idx : IVec S4096 32)
    (h : ∀ e : Fin 4096, (-4096 : ℤ) ≤ (idx (ix1 e)).toInt ∧ (idx (ix1 e)).toInt < 4096) (j : S4096.Idx) :
    inRange (wrapIdx idx) j = 1#1 := by
  unfold inRange
  rw [Host.reduce_eq_foldl]
  refine foldl_andi_one _ _ (fun n _ => ?_)
  obtain ⟨a, b, rfl⟩ : ∃ a b, n = ix2 a b := ⟨_, _, eq_ix2 n⟩
  show IntOp.andi (IntOp.cmpi .sge (wrapIdx idx (ix2 a b)) 0#32) (IntOp.cmpi .sle (wrapIdx idx (ix2 a b)) 4095#32) = 1#1
  rw [wrapIdx_apply]
  exact Cert.Decode.wrap_inb _ (h a)

/-- The masked gather is the gather. -/
theorem takeK_eq_takeR (x0 : FVec F S4096x256 .f32) (idx : IVec S4096 32)
    (h : ∀ e : Fin 4096, (-4096 : ℤ) ≤ (idx (ix1 e)).toInt ∧ (idx (ix1 e)).toInt < 4096) :
    takeK x0 idx = takeR x0 idx := by
  funext j
  obtain ⟨e, c, rfl⟩ : ∃ e c, j = ix2 e c := ⟨_, _, eq_ix2 j⟩
  unfold takeK takeR
  show Scalar.select (broadcastInDim S4096x256 ![0] bcast_S4096_S4096x256_0 (inRange (wrapIdx idx)) (ix2 e c)) _ _ = _
  rw [broadcastInDim_apply _ _ _ (ix2 e c) (ix1 e) (fun d => match d with | ⟨0, _⟩ => rfl), inRange_wrapIdx idx h]
  rfl

end Cert.KernelIdeal.Hand

end
-- ==== Proof.RefEnt.lean ====
/-
  The reference's entropy stage, read at a row: the logarithm of the square root of the least squared distance to
  another row, as the specification states it.
-/
import proofs.«400402_j52682068853382_2_alg».proof.Proof.RefRead
import proofs.«400402_j52682068853382_2_alg».proof.Proof.Spec
import Idealize.ShloMosaic.PureOps.Reduce
import Idealize.ShloMosaic.PureOps.Ideal
import Idealize.ShloMosaic.PureOps.Ideal.Laws
import Idealize.ShloMosaic.Lib.ValueIdx

noncomputable section

open scoped BigOperators

namespace Cert.RefEnt

open Cert.ReferenceIdeal Cert.ReferenceIdeal.Gen Cert.ReferenceIdeal.ReadP Idealize.ShloMosaic Idealize.ShloMosaic.ValueIdx

/-- The batch: 4096 rows of 256 entries at the ideal values. -/
abbrev Batch := (⟨S4096x256, .f32⟩ : BufTy).Contents (Elt Ideal)

/-! ## The identity mask -/

/-- On 32-bit words two row numbers below 4096 are equal words exactly when they are equal: the select on the
    comparison of the two iotas is the `if` on `i = j`. -/
theorem select_diag {α : Type} (i j : Fin 4096) (a b : α) :
    Scalar.select (IntOp.cmpi .eq (IntOp.addi (BitVec.ofNat 32 i.val) 0#32) (BitVec.ofNat 32 j.val)) a b
      = if i = j then a else b := by
  unfold Scalar.select IntOp.cmpi IntOp.addi
  by_cases h : i = j
  · subst h; simp
  · rw [if_neg h]
    have hne : ¬ (BitVec.ofNat 32 i.val + 0#32 = BitVec.ofNat 32 j.val) := by
      intro e
      apply h
      apply Fin.ext
      have := congrArg BitVec.toNat e
      simp only [BitVec.add_zero, BitVec.toNat_ofNat] at this
      have hi := i.isLt
      have hj := j.isLt
      omega
    have hb : (BitVec.ofNat 32 i.val + 0#32 == BitVec.ofNat 32 j.val) = false := by
      rw [beq_eq_false_iff_ne]; exact hne
    rw [hb]
    show (if BitVec.ofBool false = 1#1 then a else b) = b
    exact if_neg (by decide)

/-! ## The squared norms -/

/-- The row sums of the squares are the squared norms. -/
theorem sq_stage (x0 : Batch) (i : Fin 4096) : val_main_v56 (F := Ideal) x0 (ix1 i) = Cert.Spec.sq x0 i := by
  rw [val_main_v56_apply]
  have e : ∀ k : Fin 256, idx_main_v56 (ix1 i) k = ix2 i k := fun k =>
    funext fun a => Fin.ext (by match a with | ⟨0, _⟩ => rfl | ⟨1, _⟩ => rfl)
  simp only [val_main_cst_16_apply, val_main_v55_apply, e, Ideal.ofBits_def, Ideal.mulf_def, Ideal.ofBits_zero_f32, zero_add]
  rfl

/-! ## The squared distances -/

/-- The clipped difference at (i, j) is the reference's squared distance of rows i and j. -/
theorem d2_stage (x0 : Batch) (i j : Fin 4096) : val_main_v67 (F := Ideal) x0 (ix2 i j) = Cert.Spec.d2R x0 i j := by
  rw [val_main_v67_apply, val_main_call3_v1_apply, val_main_call3_v0_apply, val_main_cst_18_apply, val_main_v66_apply,
    val_main_v61_apply, val_main_v59_apply, val_main_v57_apply, val_main_v60_apply, val_main_v58_apply, val_main_v65_apply]
  have e1 : idx_main_v57 (idx_main_v59 (ix2 i j)) = ix1 i := funext fun a => Fin.ext (by match a with | ⟨0, _⟩ => rfl)
  have e2 : idx_main_v58 (idx_main_v60 (ix2 i j)) = ix1 j := funext fun a => Fin.ext (by match a with | ⟨0, _⟩ => rfl)
  have el : ∀ k : Fin 256, lidx_main_v65 (ix2 i j) k = ix2 i k := fun k =>
    funext fun a => Fin.ext (by match a with | ⟨0, _⟩ => rfl | ⟨1, _⟩ => rfl)
  have er : ∀ k : Fin 256, idx_main_v64 (ridx_main_v65 (ix2 i j) k) = ix2 j k := fun k =>
    funext fun a => Fin.ext (by match a with | ⟨0, _⟩ => rfl | ⟨1, _⟩ => rfl)
  rw [e1, e2, sq_stage, sq_stage]
  simp only [val_main_v63_apply, val_main_v62_apply, val_main_cst_17_apply, val_main_v64_apply, el, er,
    Ideal.maximumf_def, Ideal.subf_def, Ideal.addf_def, Ideal.mulf_def, Ideal.ofBits_def, Ideal.ofBits_zero_f32,
    Cert.Spec.ofBits_two]
  rfl

/-! ## The least distance to another row -/

/-- The row reduction's inserted index: row `i` with the column `k` put on the reduced axis. -/
theorem lift_row (h : S4096x4096.Reduces [1] S4096) (i k : Fin 4096) : h.lift (ix1 i) k = ix2 i k :=
  funext fun a => Fin.ext (by match a with | ⟨0, _⟩ => rfl | ⟨1, _⟩ => rfl)

/-- The masked distances at (i, j): +∞ on the diagonal, the squared distance off it. -/
theorem masked_stage (x0 : Batch) (i j : Fin 4096) :
    val_main_v73 (F := Ideal) x0 (ix2 i j) = if i = j then (⊤ : EReal) else Cert.Spec.d2R x0 i j := by
  rw [val_main_v73_apply, val_main_v72_apply, val_main_v71_apply, val_main_v68_apply, val_main_v70_apply,
    val_main_c_19_apply, val_main_v69_apply, val_main_call4_v1_apply, val_main_call4_v0_apply, val_main_cst_20_apply,
    d2_stage]
  show Scalar.select (IntOp.cmpi .eq (IntOp.addi (BitVec.ofNat 32 i.val) 0#32) (BitVec.ofNat 32 j.val)) _ _ = _
  rw [select_diag, Ideal.ofBits_def, Cert.Spec.ofBits_inf]

/-- The minimum over the columns from +∞ is the specification's row minimum. -/
theorem min_stage (x0 : Batch) (i : Fin 4096) :
    val_main_v74 (F := Ideal) x0 (ix1 i) = Cert.Spec.rowMin (Cert.Spec.d2R x0) i := by
  have h : S4096x4096.Reduces [1] S4096 := by decide
  unfold val_main_v74
  rw [Host.reduce_eq_fold_single FloatOps.minimumf _ _ reducesTo_S4096x4096_S4096_d1 h h_S_]
  have hf : (val_main_v73 (F := Ideal) x0 ∘ h.lift (ix1 i))
      = fun j : Fin 4096 => if i = j then (⊤ : EReal) else Cert.Spec.d2R x0 i j :=
    funext fun (k : Fin 4096) =>
      (congrArg (val_main_v73 (F := Ideal) x0) (lift_row h i k)).trans (masked_stage x0 i k)
  rw [hf, val_main_cst_21_apply, Ideal.ofBits_def, Cert.Spec.ofBits_inf]
  rfl

/-! ## The entry -/

/-- The reference's entry at row `i` is the specification's. -/
theorem ref_ent [Cert.ReferenceIdeal.Facts] (x0 : (⟨Cert.ReferenceIdeal.S4096x256, .f32⟩ : BufTy).Contents (Elt Ideal))
    (i : Fin 4096) :
    Cert.ReferenceIdeal.ReadP.val_main_v76 (F := Ideal) x0 (ix1 i) = Cert.Spec.entR x0 i := by
  rw [val_main_v76_apply, val_main_v75_apply, min_stage, Ideal.hostUnary_log_def, Ideal.hostUnary_sqrt_def]
  rfl

end Cert.RefEnt

end
-- ==== Proof.RefGlue.lean ====
/-
  The reference's result as the margin loss of the batch at the two taken arrays, less the sum of its entropy rows:
  the host operations of its @main, grouped under the names the kernel side's tail uses.
-/
import proofs.«400402_j52682068853382_2_alg».proof.Proof.RefRead
import proofs.«400402_j52682068853382_2_alg».proof.Proof.KI.GlueDef

noncomputable section

namespace Cert.RefGlue

open Idealize.ShloMosaic
open Cert.ReferenceIdeal.ReadP Cert.KernelIdeal.Hand

/-- For every float family: the reference's result is the margin loss at the rows taken at the two index arrays,
    less the sum of the entropy rows. The two sides are the same composition of host operations over the same
    literal shapes; the definitions unfold to one term. -/
theorem ref_result_family {F : FTy → Type} [FloatOps F] [Cert.KernelIdeal.Facts] [Cert.ReferenceIdeal.Facts]
    (x0 : (⟨Cert.ReferenceIdeal.S4096x256, .f32⟩ : BufTy).Contents (Elt F))
    (x1 : (⟨Cert.ReferenceIdeal.S100, .f32⟩ : BufTy).Contents (Elt F))
    (x2 x3 x4 : (⟨Cert.ReferenceIdeal.S4096, .i32⟩ : BufTy).Contents (Elt F)) :
    val_main_v78 (F := F) x0 x1 x2 x3 x4
      = subf (lossGlue (F := F) x0 x1 x2 (takeR (F := F) x0 x3) (takeR (F := F) x0 x4))
          (entSum (F := F) (val_main_v76 (F := F) x0)) := by
  rfl

/-- At the ideal values. -/
theorem ref_result [Cert.KernelIdeal.Facts] [Cert.ReferenceIdeal.Facts]
    (x0 : (⟨Cert.ReferenceIdeal.S4096x256, .f32⟩ : BufTy).Contents (Elt Ideal))
    (x1 : (⟨Cert.ReferenceIdeal.S100, .f32⟩ : BufTy).Contents (Elt Ideal))
    (x2 x3 x4 : (⟨Cert.ReferenceIdeal.S4096, .i32⟩ : BufTy).Contents (Elt Ideal)) :
    val_main_v78 (F := Ideal) x0 x1 x2 x3 x4
      = subf (lossGlue (F := Ideal) x0 x1 x2 (takeR (F := Ideal) x0 x3) (takeR (F := Ideal) x0 x4))
          (entSum (F := Ideal) (val_main_v76 (F := Ideal) x0)) :=
  ref_result_family (F := Ideal) x0 x1 x2 x3 x4

end Cert.RefGlue

end
-- ==== Proof.Bridge.lean ====
/-
  The whole value bridge: the kernel side's tail, fed the region's rows, is the reference's result.

  Both are the margin loss at the two taken arrays less the sum of 4096 entropy rows. The taken arrays agree because
  under the range hypothesis the masked gather is the gather. The entropy rows agree row by row: the region's
  1 × 4096 output flattened reads its entry (0, i) at i, that entry is half the logarithm of the least squared
  distance, which is the logarithm of its square root, the reference's row i.
-/
import proofs.«400402_j52682068853382_2_alg».proof.Proof.KI.Take
import proofs.«400402_j52682068853382_2_alg».proof.Proof.RefEnt
import proofs.«400402_j52682068853382_2_alg».proof.Proof.RefGlue
import proofs.«400402_j52682068853382_2_alg».proof.Proof.Spec
import Idealize.ShloMosaic.Lib.Pipeline.Value
import Idealize.ShloMosaic.Lib.ValueIdx

noncomputable section

namespace Cert.Bridge

open Idealize.ShloMosaic Idealize.ShloMosaic.ValueIdx
open Cert.KernelIdeal.Hand

/-- The flattened region output is the reference's vector of entropy rows. -/
theorem flatK_eq [Cert.KernelIdeal.Facts] [Cert.ReferenceIdeal.Facts]
    (x0 : FVec Ideal Cert.KernelIdeal.S4096x256 .f32) (k0 : FVec Ideal Cert.KernelIdeal.S1x4096 .f32)
    (hk0 : ∀ i : Fin 4096, k0 (ix2 (0 : Fin 1) i) = Cert.Spec.entK x0 i) :
    flatK (F := Ideal) k0 = Cert.ReferenceIdeal.ReadP.val_main_v76 (F := Ideal) x0 := by
  funext j
  obtain ⟨i, rfl⟩ : ∃ i, j = ix1 i := ⟨_, eq_ix1 j⟩
  unfold flatK
  refine (shapeCast_apply _ _ (ix1 i) (ix2 (0 : Fin 1) i) ?_).trans ?_
  · rw [Shape.rowMajor_val_two, Shape.rowMajor_val_one]
    show 0 * 4096 + i.val = i.val
    omega
  · rw [hk0 i, Cert.Spec.ent_eq]
    exact (Cert.RefEnt.ref_ent x0 i).symm

/-- The tail at the region's rows is the reference's result. -/
theorem result_eq [Cert.KernelIdeal.Facts] [Cert.ReferenceIdeal.Facts]
    (x0 : FVec Ideal Cert.KernelIdeal.S4096x256 .f32) (x1 : FVec Ideal Cert.KernelIdeal.S100 .f32)
    (x2 x3 x4 : IVec Cert.KernelIdeal.S4096 32)
    (h3 : ∀ e : Fin 4096, (-4096 : ℤ) ≤ (x3 (ix1 e)).toInt ∧ (x3 (ix1 e)).toInt < 4096)
    (h4 : ∀ e : Fin 4096, (-4096 : ℤ) ≤ (x4 (ix1 e)).toInt ∧ (x4 (ix1 e)).toInt < 4096)
    (k0 : FVec Ideal Cert.KernelIdeal.S1x4096 .f32)
    (hk0 : ∀ i : Fin 4096, k0 (ix2 (0 : Fin 1) i) = Cert.Spec.entK x0 i) :
    Cert.KernelIdeal.Hand.tailK x0 x1 x2 x3 x4 k0
      = Cert.ReferenceIdeal.ReadP.val_main_v78 (F := Ideal) x0 x1 x2 x3 x4 := by
  unfold tailK
  rw [takeK_eq_takeR x0 x3 h3, takeK_eq_takeR x0 x4 h4, flatK_eq x0 k0 hk0]
  exact (Cert.RefGlue.ref_result x0 x1 x2 x3 x4).symm

end Cert.Bridge

end
-- ==== Proof.KI.Result.lean ====
/-
  The idealized kernel's result. The last boundary's contents at the result buffer are the tail's function of the
  launched arguments and of the region's array; that array is, row by row, half the logarithm of the least squared
  distance; under the precondition (both index arrays in range) the whole is the reference's last stage of the same
  arguments.
-/
import proofs.«400402_j52682068853382_2_alg».proof.Proof.KI.Ends
import proofs.«400402_j52682068853382_2_alg».proof.Proof.KI.Tail
import proofs.«400402_j52682068853382_2_alg».proof.Proof.KI.Value
import proofs.«400402_j52682068853382_2_alg».proof.Proof.Bridge
import proofs.«400402_j52682068853382_2_alg».proof.Proof.Decode
import proofs.«400402_j52682068853382_2_alg».proof.Proof.Gen.Pre_finite_inputs
import proofs.«400402_j52682068853382_2_alg».proof.Proof.Gen.ReferenceIdeal

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The result buffer at the return: the tail's function of the launched arguments and the region's array. -/
theorem Wfin_v46 (c : Dev nD) :
    Wfin m ρ c (Proc.devRef .tc main_v46)
      = tailK (F := Ideal) (m ((c : Thread nD τ).loc main_arg0)) (m ((c : Thread nD τ).loc main_arg1)) (m ((c : Thread nD τ).loc main_arg2))
          (m ((c : Thread nD τ).loc main_arg3)) (m ((c : Thread nD τ).loc main_arg4)) ((dat0 (V0 m ρ) c).arrAt 2 cfg0.N) := by
  have h := T10_v46 (F := Ideal) (W1 m ρ c)
  rw [W1_of_ne m ρ c main_arg0 (by decide), W1_of_ne m ρ c main_arg1 (by decide), W1_of_ne m ρ c main_arg2 (by decide),
    W1_of_ne m ρ c main_arg3 (by decide), W1_of_ne m ρ c main_arg4 (by decide), W1_out m ρ c] at h
  exact h

/-- Under the precondition the kernel's result is the reference's last stage of the same arguments. -/
theorem result (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    Wfin m ρ c (Proc.devRef .tc main_v46)
      = Cert.ReferenceIdeal.ReadP.val_main_v78 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [Wfin_v46]
  have hr := Cert.Decode.idx_range _ _ _ _ _ hpre
  exact Cert.Bridge.result_eq _ _ _ _ _ hr.1 hr.2 _ (fun i => out_value (V0 m ρ) c i)

end Cert.KernelIdeal.Hand

end
-- ==== Proof.lean ====
/-
  The certificate. Both programs compute, for a batch of 4096 rows, a margin loss over gathered rows minus the sum over
  rows of the logarithm of the distance to the nearest other row. The kernel's program gets that sum from one pipelined
  region (eight points of 512 rows against the whole batch, the batch array read through two windows), as half the
  logarithm of the least squared distance; the reference takes the logarithm of the square root, and doubles a row
  before the inner product where the kernel doubles after it: on the extended reals the two agree at every row. The
  kernel's gather fills rows whose index is out of range, the reference clamps: under the precondition that both
  index arrays lie in [-4096, 4096) the two gathers agree, and the rest of the host chain is one function on both
  sides. The frames: the region followed by the host stretches, every unscoped buffer held at each boundary's
  contents; no stretch and no write-back touches an argument.
-/
import proofs.«400402_j52682068853382_2_alg».proof.Defs
import proofs.«400402_j52682068853382_2_alg».proof.Proof.Gen.Kernel
import proofs.«400402_j52682068853382_2_alg».proof.Proof.Gen.KernelIdeal
import proofs.«400402_j52682068853382_2_alg».proof.Proof.Gen.ReferenceIdeal
import proofs.«400402_j52682068853382_2_alg».proof.Proof.Gen.Pre_finite_inputs
import proofs.«400402_j52682068853382_2_alg».proof.Proof.K.Ends
import proofs.«400402_j52682068853382_2_alg».proof.Proof.KI.Result
import proofs.«400402_j52682068853382_2_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both runs end with one result: the kernel's last boundary at the result
    buffer, which under the precondition is the reference's last stage. -/
theorem algebraic : Cert.algebraic_KernelIdeal_ReferenceIdeal := by
  intro m ρ m' ρ' hpre hagree
  refine ⟨fun c => Cert.KernelIdeal.Hand.Wfin m ρ c (Proc.devRef .tc Cert.KernelIdeal.main_v46), Cert.KernelIdeal.Hand.run_value m ρ, ?_⟩
  refine (θ_run Cert.ReferenceIdeal.defs _ _).mono (fun r h c => ⟨(h c).1.trans ?_, (h c).2⟩)
    (Cert.ReferenceIdeal.ValueP.run (F := Ideal) m' ρ')
  rw [Cert.ReferenceIdeal.ReadP.val_main_v78_eq, (hagree c).1, (hagree c).2.1, (hagree c).2.2.1, (hagree c).2.2.2.1, (hagree c).2.2.2.2]
  exact (Cert.KernelIdeal.Hand.result m ρ c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
